-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32000 : Shape := ⟨2, ![8192, 32000]⟩
abbrev S8192 : Shape := ⟨1, ![8192]⟩
abbrev S_ : Shape := ⟨0, ![]⟩

class Facts : Prop where
  bcast_S_S8192x32000 : S_.BroadcastsInDim S8192x32000 (![] : Fin 0 → Fin S8192x32000.rank)
  reducesTo_S8192x32000_S_d0_1 : S8192x32000.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x32000 .f32) (main_arg1 : IVec S8192 32) : IVec S_ 1 :=
  let main_v0 : FVec F S8192x32000 .f32 := Host.absf main_arg0
  let main_cst : FVec F S_ .f32 := constant S_ .f32 0x7F800000#32
  let main_v1 : FVec F S8192x32000 .f32 := broadcastInDim S8192x32000 ![] bcast_S_S8192x32000 main_cst
  let main_v2 : IVec S8192x32000 1 := cmpf .olt main_v0 main_v1
  let main_c : IVec S_ 1 := constantI S_ 1 1#1
  let main_v3 : IVec S_ 1 := (fun x v => Host.reduce IntOp.andi x v reducesTo_S8192x32000_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 1 := constantI S_ 1 1#1
  let main_v6 : IVec S_ 1 := (fun x v => Host.reduce IntOp.andi x v reducesTo_S8192_S_d0 h_S_) main_v5 main_c_1
  let main_v7 : IVec S_ 1 := andi main_v3 main_v6
  let main_c_2 : IVec S_ 32 := constantI S_ 32 32000#32
  let main_v8 : IVec S8192 32 := broadcastInDim S8192 ![] bcast_S_S8192 main_c_2
  let main_v9 : IVec S8192 1 := cmpi .slt main_arg1 main_v8
  let main_c_3 : IVec S_ 1 := constantI S_ 1 1#1
  let main_v10 : IVec S_ 1 := (fun x v => Host.reduce IntOp.andi x v reducesTo_S8192_S_d0 h_S_) main_v9 main_c_3
  let main_v11 : IVec S_ 1 := andi main_v7 main_v10
  main_v11
-- ==== Kernel.lean ====
abbrev S8192x32000 : Shape := ⟨2, ![8192, 32000]⟩
abbrev S8192 : Shape := ⟨1, ![8192]⟩
abbrev S8192x1 : Shape := ⟨2, ![8192, 1]⟩
abbrev S2x1x1 : Shape := ⟨3, ![2, 1, 1]⟩
abbrev S128x32000 : Shape := ⟨2, ![128, 32000]⟩
abbrev S128x1 : Shape := ⟨2, ![128, 1]⟩
abbrev S1x1x1 : Shape := ⟨3, ![1, 1, 1]⟩
abbrev S128x3200 : Shape := ⟨2, ![128, 3200]⟩
abbrev S128 : Shape := ⟨1, ![128]⟩
abbrev S1x128x1 : Shape := ⟨3, ![1, 128, 1]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192x1, .i32⟩
  | .hbm, ⟨3, _⟩ => ⟨S2x1x1, .f32⟩
  | .hbm, ⟨4, _⟩ => ⟨S_, .f32⟩
  | .hbm, ⟨5, _⟩ => ⟨S_, .f32⟩
  | .local _ .vmem, ⟨0, _⟩ => ⟨S128x32000, .f32⟩
  | .local _ .vmem, ⟨1, _⟩ => ⟨S128x32000, .f32⟩
  | .local _ .vmem, ⟨2, _⟩ => ⟨S128x1, .i32⟩
  | .local _ .vmem, ⟨3, _⟩ => ⟨S128x1, .i32⟩
  | .local _ .vmem, ⟨4, _⟩ => ⟨S1x1x1, .f32⟩
  | .local _ .vmem, ⟨5, _⟩ => ⟨S1x1x1, .f32⟩
  | _, _ => ⟨S8192x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_mult1 : BitVec 32 :=
  let c0_i32_4 : BitVec 32 := 0#32
  let c3200_i32 : BitVec 32 := 3200#32
  let v9 : BitVec 32 := Scalar.muli c0_i32_4 c3200_i32
  v9
def k0_off1 (c0_i32_4 : BitVec 32) : Fin 2 → Nat :=
  let c0_5 : Index := 0#32
  let c3200_i32 : BitVec 32 := 3200#32
  let v9 : BitVec 32 := Scalar.muli c0_i32_4 c3200_i32
  let v10 : BitVec 32 := v9
  let v11 : Index := Scalar.indexCast v10
  ![0, v11.toNat]
def k0_mult2 : BitVec 32 :=
  let c1_i32 : BitVec 32 := 1#32
  let c3200_i32_10 : BitVec 32 := 3200#32
  let v34 : BitVec 32 := Scalar.muli c1_i32 c3200_i32_10
  v34
def k0_mult3 : BitVec 32 :=
  let c2_i32 : BitVec 32 := 2#32
  let c3200_i32_16 : BitVec 32 := 3200#32
  let v59 : BitVec 32 := Scalar.muli c2_i32 c3200_i32_16
  v59
def k0_mult4 : BitVec 32 :=
  let c3_i32 : BitVec 32 := 3#32
  let c3200_i32_22 : BitVec 32 := 3200#32
  let v84 : BitVec 32 := Scalar.muli c3_i32 c3200_i32_22
  v84
def k0_mult5 : BitVec 32 :=
  let c4_i32 : BitVec 32 := 4#32
  let c3200_i32_28 : BitVec 32 := 3200#32
  let v109 : BitVec 32 := Scalar.muli c4_i32 c3200_i32_28
  v109
def k0_mult6 : BitVec 32 :=
  let c5_i32 : BitVec 32 := 5#32
  let c3200_i32_34 : BitVec 32 := 3200#32
  let v134 : BitVec 32 := Scalar.muli c5_i32 c3200_i32_34
  v134
def k0_mult7 : BitVec 32 :=
  let c6_i32 : BitVec 32 := 6#32
  let c3200_i32_40 : BitVec 32 := 3200#32
  let v159 : BitVec 32 := Scalar.muli c6_i32 c3200_i32_40
  v159
def k0_mult8 : BitVec 32 :=
  let c7_i32 : BitVec 32 := 7#32
  let c3200_i32_46 : BitVec 32 := 3200#32
  let v184 : BitVec 32 := Scalar.muli c7_i32 c3200_i32_46
  v184
def k0_mult9 : BitVec 32 :=
  let c8_i32 : BitVec 32 := 8#32
  let c3200_i32_52 : BitVec 32 := 3200#32
  let v209 : BitVec 32 := Scalar.muli c8_i32 c3200_i32_52
  v209
def k0_mult10 : BitVec 32 :=
  let c9_i32 : BitVec 32 := 9#32
  let c3200_i32_58 : BitVec 32 := 3200#32
  let v234 : BitVec 32 := Scalar.muli c9_i32 c3200_i32_58
  v234
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8192_S8192x1 : S8192.ShapeCasts S8192x1
  inb_S1x1x1_S1x1x1_0_0_0 : ∀ a, (![0, 0, 0] : Fin 3 → Nat) a + S1x1x1.size a ≤ S1x1x1.size a
  h_S1x1x1 : 0 < S1x1x1.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  iota_S128x3200_d1_w32 : S128x3200.Iotas .tc 32 [1]
  h_S128x3200 : 0 < S128x3200.numel
  reduces_S128x3200_S128 : S128x3200.Reduces [1] S128
  shapeCasts_S128_S128x1 : S128.ShapeCasts S128x1
  broadcasts_S128x1_S128x3200 : S128x1.Broadcasts S128x3200
  shapeCasts_S128x1_S1x128x1 : S128x1.ShapeCasts S1x128x1
  reduces_S1x128x1_S1 : S1x128x1.Reduces [1, 2] S1
  shapeCasts_S1_S1x1x1 : S1.ShapeCasts S1x1x1
  inpos_S1x1x1_p0_0_0 : ∀ a, (![0, 0, 0] : Fin 3 → Nat) a < S1x1x1.size a
  shapeCasts_S1x1x1_S1x1x1 : S1x1x1.ShapeCasts S1x1x1
  reducesTo_S2x1x1_S_d0_1_2 : S2x1x1.ReducesTo [0, 1, 2] S_
  h_S_ : 0 < S_.numel
  hrank0 : 0 < grid0.rank
  k0_mult1_dvd : 3200 ∣ k0_mult1.toNat
  k0_off1_inb : ∀ (r : Fin 10), ∀ a, (k0_off1 (BitVec.ofNat 32 r.val)) a + S128x3200.size a ≤ S128x32000.size a
  k0_mult2_dvd : 3200 ∣ k0_mult2.toNat
  k0_mult3_dvd : 3200 ∣ k0_mult3.toNat
  k0_mult4_dvd : 3200 ∣ k0_mult4.toNat
  k0_mult5_dvd : 3200 ∣ k0_mult5.toNat
  k0_mult6_dvd : 3200 ∣ k0_mult6.toNat
  k0_mult7_dvd : 3200 ∣ k0_mult7.toNat
  k0_mult8_dvd : 3200 ∣ k0_mult8.toNat
  k0_mult9_dvd : 3200 ∣ k0_mult9.toNat
  k0_mult10_dvd : 3200 ∣ k0_mult10.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32000.size a ≤ S8192x32000.size a
  hwx0_0 : ∀ i : grid0.Coords, EltTy.bits .f32 = 32 ∨ (Rect.block (s := S8192x32000) S128x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S8192x1.size a
  hwx0_1 : ∀ i : grid0.Coords, EltTy.bits .i32 = 32 ∨ (Rect.block (s := S8192x1) S128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg0) S128x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x32000 : Shape := ⟨2, ![8192, 32000]⟩
abbrev S8192 : Shape := ⟨1, ![8192]⟩
abbrev S_ : Shape := ⟨0, ![]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S_, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x1, .f32⟩
  | .hbm, ⟨8, _⟩ => ⟨S8192x32000, .f32⟩
  | .hbm, ⟨9, _⟩ => ⟨S8192x32000, .f32⟩
  | .hbm, ⟨10, _⟩ => ⟨S8192x32000, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S8192x32000, .f32⟩
  | .hbm, ⟨16, _⟩ => ⟨S8192x32000, .f32⟩
  | .hbm, ⟨17, _⟩ => ⟨S8192x1, .i32⟩
  | .hbm, ⟨18, _⟩ => ⟨S_, .i32⟩
  | .hbm, ⟨19, _⟩ => ⟨S8192x1, .i32⟩
  | .hbm, ⟨20, _⟩ => ⟨S8192x1, .i1⟩
  | .hbm, ⟨21, _⟩ => ⟨S_, .i32⟩
  | .hbm, ⟨22, _⟩ => ⟨S8192x1, .i32⟩
  | .hbm, ⟨23, _⟩ => ⟨S8192x1, .i32⟩
  | .hbm, ⟨24, _⟩ => ⟨S8192x1, .i32⟩
  | .hbm, ⟨25, _⟩ => ⟨S8192x1x1, .i32⟩
  | .hbm, ⟨26, _⟩ => ⟨S1, .i32⟩
  | .hbm, ⟨27, _⟩ => ⟨S_, .i32⟩
  | .hbm, ⟨28, _⟩ => ⟨S8192x1x1, .i32⟩
  | .hbm, ⟨29, _⟩ => ⟨S8192x1x1, .i1⟩
  | .hbm, ⟨30, _⟩ => ⟨S1x1x1, .i32⟩
  | .hbm, ⟨31, _⟩ => ⟨S8192x1x1, .i32⟩
  | .hbm, ⟨32, _⟩ => ⟨S8192x1x1, .i1⟩
  | .hbm, ⟨33, _⟩ => ⟨S8192x1x1, .i1⟩
  | .hbm, ⟨34, _⟩ => ⟨S_, .i1⟩
  | .hbm, ⟨35, _⟩ => ⟨S8192x1, .i1⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S_, .f32⟩
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_cst : Ref sig .tc := ⟨.hbm, 42, rfl⟩
abbrev main_v5 : Ref sig .tc := ⟨.hbm, 43, rfl⟩
abbrev main_v6 : Ref sig .tc := ⟨.hbm, 44, rfl⟩
abbrev main_cst_0 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_cst_1 : Ref sig .tc := ⟨.hbm, 50, rfl⟩
abbrev main_v11 : Ref sig .tc := ⟨.hbm, 51, rfl⟩

abbrev nD : Nat := 1
abbrev τ : Topo := Topo.v7x

variable {F : FTy → Type} [FloatOps F]

class Facts₀ : Prop where
  reducesTo_S8192x32000_S8192_d1 : S8192x32000.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  gather_S8192x32000_S8192x1x1_S8192x1_n_1_0_0_1_2_11_wf : GatherDims.WF S8192x32000 S8192x1x1 S8192x1 [] [1] [0] [1] [0] 2 ![1, 1]

variable [Facts₀]

def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

class Facts : Prop extends Facts₀ where

variable [Facts]
-- ==== Proof.PreDecode.lean ====
/-
  The precondition, read back. The printed precondition is the conjunction of three "all elements satisfy" terms over
  the two inputs: every entry of the matrix has absolute value below +∞; every entry of the index vector is at least 0,
  read signed; every entry of the index vector is below 32000, read signed. Each "all" is a reduction by `and` from
  the constant 1 into a single cell, so the whole being 1 gives each comparison being 1 at each element.

  Over the extended reals the absolute value is `max x (−x)`, and it is below +∞ exactly when `x` is neither +∞ nor
  −∞ (the junk value ⊥ a NaN denotes is −∞ here, so it is excluded too): such an `x` is a real number. A 32-bit word
  `t` with `0 ≤ t` and `t < 32000` as signed numbers has its top bit clear, so its signed and unsigned readings
  agree, and it is the word of the natural number `t.toNat < 32000`.
-/
import proofs.«431238_j12627203851059_3_alg».proof.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.StableHlo.Predicate

noncomputable section

namespace Cert.Focal

open Idealize.ShloMosaic

/-- The f32 pattern with an all-ones exponent and a zero fraction is +∞. -/
private theorem ofBits_inf : Ideal.ofBits .f32 0x7F800000#32 = (⊤ : EReal) := by
  simp [Ideal.ofBits, Ideal.ieee]

/-- An extended real whose absolute value is below +∞ is a real number. -/
private theorem real_of_abs_lt_top (x : EReal) (h : max x (-x) < ⊤) : ∃ r : ℝ, x = (r : EReal) := by
  induction x using EReal.rec with
  | bot => simp at h
  | coe r => exact ⟨r, rfl⟩
  | top => simp at h

/-- A 32-bit word that is at least 0 and below 32000, both read signed, is a natural number below 32000. -/
private theorem word_of_range (t : BitVec 32) (h0 : (0#32 : BitVec 32).toInt ≤ t.toInt)
    (h1 : t.toInt < (32000#32 : BitVec 32).toInt) : t.toNat < 32000 := by
  have e0 : (0#32 : BitVec 32).toInt = 0 := by decide
  have e1 : (32000#32 : BitVec 32).toInt = 32000 := by decide
  rw [e0] at h0
  rw [e1] at h1
  rw [BitVec.toInt_eq_toNat_cond] at h0 h1
  have := t.isLt
  split at h0 <;> omega

theorem reals_of_pre [Cert.Pre_finite_inputs.Facts]
    (X : FVec Ideal Cert.Pre_finite_inputs.S8192x32000 .f32) (T : IVec Cert.Pre_finite_inputs.S8192 32)
    (h : Cert.Pre_finite_inputs.fn (F := Ideal) X T = fun _ => 1#1) :
    ∃ (xr : Fin 8192 → Fin 32000 → ℝ) (kr : Fin 8192 → Fin 32000),
      (∀ r j, X (ValueIdx.ix2 r j) = ((xr r j : ℝ) : EReal))
      ∧ (∀ r, T (ValueIdx.ix1 r) = BitVec.ofNat 32 (kr r).val) := by
  haveI : Subsingleton Cert.Pre_finite_inputs.S_.Idx := ⟨fun a b => funext fun d => d.elim0⟩
  have h0 := congrFun h ValueIdx.ix0
  dsimp only [Cert.Pre_finite_inputs.fn] at h0
  obtain ⟨h01, h2⟩ := IntOp.andi_eq_one.1 h0
  obtain ⟨hx, h1⟩ := IntOp.andi_eq_one.1 h01
  have ex := Host.reduce_andi_all _ _ _ _ _ hx
  have e1 := Host.reduce_andi_all _ _ _ _ _ h1
  have e2 := Host.reduce_andi_all _ _ _ _ _ h2
  have hreal : ∀ r j, ∃ v : ℝ, X (ValueIdx.ix2 r j) = (v : EReal) := by
    intro r j
    have e : Ideal.cmp .olt (max (X (ValueIdx.ix2 r j)) (-(X (ValueIdx.ix2 r j))))
        (Ideal.ofBits .f32 0x7F800000#32) = 1#1 := ex (ValueIdx.ix2 r j)
    rw [ofBits_inf] at e
    simp only [Ideal.cmp, StableHlo.Predicate.ofBool_eq_one_iff, decide_eq_true_eq] at e
    exact real_of_abs_lt_top _ e
  have hword : ∀ r, (T (ValueIdx.ix1 r)).toNat < 32000 := by
    intro r
    have a : IntOp.cmpi .sge (T (ValueIdx.ix1 r)) 0#32 = 1#1 := e1 (ValueIdx.ix1 r)
    have b : IntOp.cmpi .slt (T (ValueIdx.ix1 r)) 32000#32 = 1#1 := e2 (ValueIdx.ix1 r)
    exact word_of_range _ (IntOp.cmpi_sge.1 a) (IntOp.cmpi_slt.1 b)
  choose xr hxr using hreal
  refine ⟨xr, fun r => ⟨(T (ValueIdx.ix1 r)).toNat, hword r⟩, hxr, fun r => ?_⟩
  apply BitVec.eq_of_toNat_eq
  have := (T (ValueIdx.ix1 r)).isLt
  simp only [BitVec.toNat_ofNat]
  omega

end Cert.Focal

end
-- ==== Proof.Spec.lean ====
/-
  The focal loss with exponent 3 of a matrix of logits against a vector of class indices, as a function over the
  reals, and the streaming form in which one pass over a row's columns, chunk by chunk, computes it.

  For a row `x` and its class `k` let `lp = x k − log (∑ j, exp (x j))`, the log-softmax of the row at `k`. The row's
  loss is `−(1 − exp lp)³ · lp`, and the result is the sum of the rows' losses.

  The streaming pass keeps three numbers per row: a running maximum `m`, the running sum `l` of `exp (x j − m)`
  (rescaled by `exp (m − m')` whenever the maximum moves to `m'`), and the running sum `g` of the entries whose
  column is the class (at most one entry is, so `g` ends at `x k`). After the last chunk `log l + m` is
  `log (∑ j, exp (x j))` whatever finite value `m` has, since `l = exp (−m) · ∑ j, exp (x j)`.
-/
import Idealize.ShloMosaic.PureOps.Ideal

noncomputable section

open Idealize.ShloMosaic

namespace Cert.Focal

/-- The log-softmax of a row at one column. -/
def logProb {n : ℕ} (x : Fin n → ℝ) (k : Fin n) : ℝ := x k - Real.log (∑ j, Real.exp (x j))

/-- One row's focal loss with exponent 3 at its class. -/
def rowLoss {n : ℕ} (x : Fin n → ℝ) (k : Fin n) : ℝ := -((1 - Real.exp (logProb x k)) ^ 3) * logProb x k

/-- The greatest entry of a chunk, from `⊥`. -/
def chunkMax {w : ℕ} (xc : Fin w → EReal) : EReal := (Finset.univ : Finset (Fin w)).fold max ⊥ xc

/-- One chunk of the streaming pass on the state `(m, l, g)`: the maximum moves to `m' = max m (chunk's maximum)`,
    the sum is rescaled to the new maximum and takes the chunk's `exp (x j − m')`, and the class entry is added where
    the chunk holds it. -/
def onlineStep {w : ℕ} (s : EReal × EReal × EReal) (xc : Fin w → EReal) (hit : Fin w → Prop) [DecidablePred hit] :
    EReal × EReal × EReal :=
  (max s.1 (chunkMax xc),
   s.2.1 * Ideal.exp (s.1 - max s.1 (chunkMax xc)) + ∑ j, Ideal.exp (xc j - max s.1 (chunkMax xc)),
   s.2.2 + ∑ j, if hit j then xc j else 0)

/-- The row's loss read off the final state: `lp = g − (log l + m)`, then `(0 − (1 − exp lp)·(1 − exp lp)·(1 − exp lp)) · lp`. -/
def onlineLoss (s : EReal × EReal × EReal) : EReal :=
  (0 - ((1 - Ideal.exp (s.2.2 - (Ideal.log s.2.1 + s.1))) * (1 - Ideal.exp (s.2.2 - (Ideal.log s.2.1 + s.1))))
      * (1 - Ideal.exp (s.2.2 - (Ideal.log s.2.1 + s.1))))
    * (s.2.2 - (Ideal.log s.2.1 + s.1))

/-- Chunk `c` (3200 columns) of a row of 32000 reals, as extended reals. -/
def chunk (x : Fin 32000 → ℝ) (c : Fin 10) : Fin 3200 → EReal :=
  fun j => ((x ⟨3200 * c.val + j.val, by have := c.isLt; have := j.isLt; omega⟩ : ℝ) : EReal)

/-- The state after the ten chunks of a row, from `(⊥, 0, 0)`. -/
def onlineState (x : Fin 32000 → ℝ) (k : Fin 32000) : EReal × EReal × EReal :=
  ([0, 1, 2, 3, 4, 5, 6, 7, 8, 9] : List (Fin 10)).foldl
    (fun s c => onlineStep s (chunk x c) (fun j : Fin 3200 => 3200 * c.val + j.val = k.val)) (⊥, 0, 0)

end Cert.Focal

end
-- ==== Proof.OnlineLse.lean ====
/-
  The streaming pass over a row's ten chunks computes the row's focal loss.

  After a nonempty family of chunks has been taken the state is
  (μ, exp (−μ) · A, B) for some real μ, where A is the sum of exp (x j) and B the sum of
  (if j = k then x j else 0) over the taken columns. The value of μ never matters, only that it is
  real: a chunk is nonempty, so its greatest entry is one of its (real) entries. The first chunk
  starts from (⊥, 0, 0): ⊥ − μ' = ⊥, exp ⊥ = 0, and 0 · 0 = 0. A later chunk moves μ to
  μ' = max μ (the chunk's greatest entry), and exp (−μ) · A · exp (μ − μ') = exp (−μ') · A.
  After the ten chunks the columns 3200 · c + j are all of Fin 32000, so l = exp (−μ) · Σ_j exp (x j) > 0,
  log l + μ = log (Σ_j exp (x j)), g = x k, and the loss read off the state is the row's loss.

  Also: a sum over 8192 rows regrouped as 2 × 32 × 128.
-/
import proofs.«431238_j12627203851059_3_alg».proof.Proof.Spec
import Mathlib.Algebra.BigOperators.Fin
import Mathlib.Logic.Equiv.Fin.Basic
import Mathlib.Analysis.SpecialFunctions.Log.Basic
import Mathlib.Data.EReal.Operations

noncomputable section

open Idealize.ShloMosaic

namespace Cert.Focal

namespace OnlineLse

/-! ### Coerced reals in the extended reals -/

/-- A finite sum of coerced reals is the coercion of the real sum. -/
theorem coe_finset_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The maximum of two coerced reals is the coercion of the real maximum. -/
theorem coe_max (a b : ℝ) : max (a : EReal) (b : EReal) = ((max a b : ℝ) : EReal) :=
  (EReal.coe_strictMono.monotone.map_max).symm

/-- The greatest of a nonempty finite family of coerced reals, taken from ⊥, is a coerced real. -/
theorem fold_max_coe {ι : Type*} (s : Finset ι) (r : ι → ℝ) (hs : s.Nonempty) :
    ∃ μ : ℝ, s.fold max (⊥ : EReal) (fun j => (r j : EReal)) = (μ : EReal) := by
  classical
  induction s using Finset.induction_on with
  | empty => exact absurd hs Finset.not_nonempty_empty
  | insert a s ha ih =>
    rw [Finset.fold_insert ha]
    rcases s.eq_empty_or_nonempty with rfl | hne
    · exact ⟨r a, by simp⟩
    · obtain ⟨μ, hμ⟩ := ih hne
      exact ⟨max (r a) μ, by rw [hμ, coe_max]⟩

/-! ### One chunk -/

/-- Column j of chunk c. -/
def col (c : Fin 10) (j : Fin 3200) : Fin 32000 :=
  ⟨3200 * c.val + j.val, by have := c.isLt; have := j.isLt; omega⟩

theorem chunk_apply (x : Fin 32000 → ℝ) (c : Fin 10) (j : Fin 3200) :
    chunk x c j = ((x (col c j) : ℝ) : EReal) := rfl

/-- The sum of exp (x j) over the columns of chunk c. -/
def chunkExp (x : Fin 32000 → ℝ) (c : Fin 10) : ℝ := ∑ j : Fin 3200, Real.exp (x (col c j))

/-- The sum over the columns of chunk c of the entry at the class column, if the chunk holds it. -/
def chunkHit (x : Fin 32000 → ℝ) (k : Fin 32000) (c : Fin 10) : ℝ :=
  ∑ j : Fin 3200, if 3200 * c.val + j.val = k.val then x (col c j) else 0

theorem chunkMax_chunk (x : Fin 32000 → ℝ) (c : Fin 10) : ∃ μ : ℝ, chunkMax (chunk x c) = (μ : EReal) :=
  fold_max_coe Finset.univ (fun j => x (col c j)) ⟨⟨0, by norm_num⟩, Finset.mem_univ _⟩

theorem sum_exp_chunk (x : Fin 32000 → ℝ) (c : Fin 10) (μ : ℝ) :
    ∑ j, Ideal.exp (chunk x c j - (μ : EReal)) = ((Real.exp (-μ) * chunkExp x c : ℝ) : EReal) := by
  have h : ∀ j, Ideal.exp (chunk x c j - (μ : EReal))
      = ((Real.exp (-μ) * Real.exp (x (col c j)) : ℝ) : EReal) := by
    intro j
    rw [chunk_apply, ← EReal.coe_sub, Ideal.exp_coe, sub_eq_neg_add, Real.exp_add]
  rw [Finset.sum_congr rfl (fun j _ => h j), coe_finset_sum, chunkExp, Finset.mul_sum]

theorem sum_hit_chunk (x : Fin 32000 → ℝ) (k : Fin 32000) (c : Fin 10) :
    (∑ j : Fin 3200, if 3200 * c.val + j.val = k.val then chunk x c j else 0)
      = ((chunkHit x k c : ℝ) : EReal) := by
  have h : ∀ j : Fin 3200, (if 3200 * c.val + j.val = k.val then chunk x c j else (0 : EReal))
      = (((if 3200 * c.val + j.val = k.val then x (col c j) else 0) : ℝ) : EReal) := by
    intro j
    split_ifs
    · exact chunk_apply x c j
    · exact EReal.coe_zero.symm
  rw [Finset.sum_congr rfl (fun j _ => h j), coe_finset_sum, chunkHit]

/-- A chunk taken from the initial state. -/
theorem onlineStep_init (x : Fin 32000 → ℝ) (k : Fin 32000) (c : Fin 10) :
    ∃ μ' : ℝ, onlineStep ((⊥ : EReal), (0 : EReal), (0 : EReal)) (chunk x c)
        (fun j : Fin 3200 => 3200 * c.val + j.val = k.val)
      = ((μ' : EReal), ((Real.exp (-μ') * chunkExp x c : ℝ) : EReal), ((chunkHit x k c : ℝ) : EReal)) := by
  obtain ⟨ν, hν⟩ := chunkMax_chunk x c
  refine ⟨ν, ?_⟩
  have hm : max (⊥ : EReal) (chunkMax (chunk x c)) = (ν : EReal) := by
    rw [hν]; exact max_eq_right bot_le
  simp only [onlineStep]
  rw [hm, sum_exp_chunk, sum_hit_chunk, EReal.bot_sub, Ideal.exp_bot, zero_mul, zero_add, zero_add]

/-- A chunk taken from a state whose maximum is real. -/
theorem onlineStep_coe (x : Fin 32000 → ℝ) (k : Fin 32000) (c : Fin 10) (μ A B : ℝ) :
    ∃ μ' : ℝ, onlineStep ((μ : EReal), ((Real.exp (-μ) * A : ℝ) : EReal), (B : EReal)) (chunk x c)
        (fun j : Fin 3200 => 3200 * c.val + j.val = k.val)
      = ((μ' : EReal), ((Real.exp (-μ') * (A + chunkExp x c) : ℝ) : EReal),
          ((B + chunkHit x k c : ℝ) : EReal)) := by
  obtain ⟨ν, hν⟩ := chunkMax_chunk x c
  refine ⟨max μ ν, ?_⟩
  have hm : max (μ : EReal) (chunkMax (chunk x c)) = ((max μ ν : ℝ) : EReal) := by
    rw [hν, coe_max]
  have he : Real.exp (-μ) * Real.exp (μ - max μ ν) = Real.exp (-(max μ ν)) := by
    have hsum : -μ + (μ - max μ ν) = -(max μ ν) := by ring
    rw [← Real.exp_add, hsum]
  simp only [onlineStep]
  rw [hm, sum_exp_chunk, sum_hit_chunk, ← EReal.coe_sub, Ideal.exp_coe, ← EReal.coe_mul, ← EReal.coe_add,
    ← EReal.coe_add]
  have hl : Real.exp (-μ) * A * Real.exp (μ - max μ ν) + Real.exp (-(max μ ν)) * chunkExp x c
      = Real.exp (-(max μ ν)) * (A + chunkExp x c) := by
    linear_combination A * he
  rw [hl]

/-- A list of chunks taken from a state whose maximum is real. -/
theorem foldl_onlineStep (x : Fin 32000 → ℝ) (k : Fin 32000) (cs : List (Fin 10)) (μ A B : ℝ) :
    ∃ μ' : ℝ, cs.foldl
        (fun s c => onlineStep s (chunk x c) (fun j : Fin 3200 => 3200 * c.val + j.val = k.val))
        ((μ : EReal), ((Real.exp (-μ) * A : ℝ) : EReal), (B : EReal))
      = ((μ' : EReal), ((Real.exp (-μ') * (A + (cs.map (chunkExp x)).sum) : ℝ) : EReal),
          ((B + (cs.map (chunkHit x k)).sum : ℝ) : EReal)) := by
  induction cs generalizing μ A B with
  | nil => exact ⟨μ, by simp⟩
  | cons c cs ih =>
    obtain ⟨μ₁, h₁⟩ := onlineStep_coe x k c μ A B
    obtain ⟨μ₂, h₂⟩ := ih μ₁ (A + chunkExp x c) (B + chunkHit x k c)
    refine ⟨μ₂, ?_⟩
    rw [List.foldl_cons, h₁, h₂, List.map_cons, List.sum_cons, List.map_cons, List.sum_cons, add_assoc,
      add_assoc]

/-! ### The ten chunks are the whole row -/

theorem sum_col (F : Fin 32000 → ℝ) : ∑ c : Fin 10, ∑ j : Fin 3200, F (col c j) = ∑ i, F i := by
  rw [← Fintype.sum_prod_type']
  refine Fintype.sum_equiv (finProdFinEquiv : Fin 10 × Fin 3200 ≃ Fin (10 * 3200)) _ _ (fun p => ?_)
  congr 1
  apply Fin.ext
  simp [col, finProdFinEquiv, add_comm]

theorem sum_chunkExp (x : Fin 32000 → ℝ) : ∑ c : Fin 10, chunkExp x c = ∑ j, Real.exp (x j) :=
  sum_col (fun i => Real.exp (x i))

theorem sum_chunkHit (x : Fin 32000 → ℝ) (k : Fin 32000) : ∑ c : Fin 10, chunkHit x k c = x k := by
  have h : ∀ (c : Fin 10) (j : Fin 3200),
      (if 3200 * c.val + j.val = k.val then x (col c j) else 0)
        = (fun i : Fin 32000 => if i = k then x i else 0) (col c j) := by
    intro c j
    have : (col c j = k) ↔ (3200 * c.val + j.val = k.val) := Fin.ext_iff
    simp only [this]
  have hsum : ∑ c : Fin 10, chunkHit x k c
      = ∑ c : Fin 10, ∑ j : Fin 3200, (fun i : Fin 32000 => if i = k then x i else 0) (col c j) :=
    Finset.sum_congr rfl (fun c _ => Finset.sum_congr rfl (fun j _ => h c j))
  calc ∑ c : Fin 10, chunkHit x k c
      = ∑ c : Fin 10, ∑ j : Fin 3200, (fun i : Fin 32000 => if i = k then x i else 0) (col c j) := hsum
    _ = ∑ i : Fin 32000, (if i = k then x i else 0) := sum_col (fun i => if i = k then x i else 0)
    _ = x k := by rw [Finset.sum_ite_eq' Finset.univ k x, if_pos (Finset.mem_univ k)]

/-- The state after the ten chunks. -/
theorem onlineState_eq (x : Fin 32000 → ℝ) (k : Fin 32000) :
    ∃ μ : ℝ, onlineState x k
      = ((μ : EReal), ((Real.exp (-μ) * ∑ j, Real.exp (x j) : ℝ) : EReal), ((x k : ℝ) : EReal)) := by
  obtain ⟨μ₀, h₀⟩ := onlineStep_init x k 0
  obtain ⟨μ, h⟩ := foldl_onlineStep x k [1, 2, 3, 4, 5, 6, 7, 8, 9] μ₀ (chunkExp x 0) (chunkHit x k 0)
  refine ⟨μ, ?_⟩
  have hL : (List.finRange 10) = [0, 1, 2, 3, 4, 5, 6, 7, 8, 9] := by decide
  have hE : chunkExp x 0 + (([1, 2, 3, 4, 5, 6, 7, 8, 9] : List (Fin 10)).map (chunkExp x)).sum
      = ∑ j, Real.exp (x j) := by
    rw [← sum_chunkExp, Fin.sum_univ_def, hL]
    simp only [List.map_cons, List.sum_cons, List.map_nil, List.sum_nil]
  have hG : chunkHit x k 0 + (([1, 2, 3, 4, 5, 6, 7, 8, 9] : List (Fin 10)).map (chunkHit x k)).sum
      = x k := by
    rw [← sum_chunkHit x k, Fin.sum_univ_def, hL]
    simp only [List.map_cons, List.sum_cons, List.map_nil, List.sum_nil]
  rw [onlineState, List.foldl_cons, h₀, h, hE, hG]

end OnlineLse

open OnlineLse in
/-- The loss read off the state after the ten chunks is the row's loss. -/
theorem onlineLoss_onlineState (x : Fin 32000 → ℝ) (k : Fin 32000) :
    onlineLoss (onlineState x k) = ((rowLoss x k : ℝ) : EReal) := by
  obtain ⟨μ, h⟩ := onlineState_eq x k
  rw [h]
  have hS : 0 < ∑ j, Real.exp (x j) :=
    Finset.sum_pos (fun j _ => Real.exp_pos _) ⟨k, Finset.mem_univ k⟩
  have hl : 0 < Real.exp (-μ) * ∑ j, Real.exp (x j) := mul_pos (Real.exp_pos _) hS
  have hlog : Ideal.log ((Real.exp (-μ) * ∑ j, Real.exp (x j) : ℝ) : EReal) + (μ : EReal)
      = ((Real.log (∑ j, Real.exp (x j)) : ℝ) : EReal) := by
    rw [Ideal.log_coe, if_neg (not_le.mpr hl), ← EReal.coe_add,
      Real.log_mul (Real.exp_pos _).ne' hS.ne', Real.log_exp]
    congr 1; ring
  have hlp : ((x k : ℝ) : EReal)
        - (Ideal.log ((Real.exp (-μ) * ∑ j, Real.exp (x j) : ℝ) : EReal) + (μ : EReal))
      = ((logProb x k : ℝ) : EReal) := by
    rw [hlog, ← EReal.coe_sub]; rfl
  simp only [onlineLoss]
  rw [hlp, Ideal.exp_coe, rowLoss, ← EReal.coe_one, ← EReal.coe_zero, ← EReal.coe_sub, ← EReal.coe_mul,
    ← EReal.coe_mul, ← EReal.coe_sub, ← EReal.coe_mul]
  congr 1; ring

/-! ### Rows by blocks -/

/-- A sum over m · n consecutive naturals, as m blocks of n. -/
theorem OnlineLse.sum_range_mul (f : ℕ → ℝ) (m n : ℕ) :
    ∑ r ∈ Finset.range (m * n), f r = ∑ a ∈ Finset.range m, ∑ b ∈ Finset.range n, f (n * a + b) := by
  induction m with
  | zero => simp
  | succ m ih => rw [Finset.sum_range_succ, ← ih, Nat.succ_mul, Finset.sum_range_add, Nat.mul_comm n m]

/-- 8192 rows as 2 × 32 × 128. -/
theorem sum_rows_by_blocks (f : ℕ → ℝ) :
    ∑ r ∈ Finset.range 8192, f r
      = ∑ c ∈ Finset.range 2, ∑ i ∈ Finset.range 32, ∑ p ∈ Finset.range 128, f (4096 * c + 128 * i + p) := by
  have h₁ := OnlineLse.sum_range_mul f 2 4096
  rw [show (2 * 4096 : ℕ) = 8192 from rfl] at h₁
  rw [h₁]
  refine Finset.sum_congr rfl (fun c _ => ?_)
  have h₂ := OnlineLse.sum_range_mul (fun q => f (4096 * c + q)) 32 128
  simp only [← add_assoc] at h₂
  exact h₂

end Cert.Focal

end
-- ==== Proof.KerRow.lean ====
/-
  What one grid point of the kernel adds to its accumulator: the sum, over the 128 rows of the point's block of
  logits, of the row's focal loss with exponent 3 at the row's class.

  The kernel's body walks the block's 32000 columns in ten chunks of 3200. On whole columns (one entry per row) it
  keeps a running maximum `m` (from −∞), a running sum `l` of `exp (x − m)`, rescaled by `exp (m − m')` whenever
  the maximum moves to `m'`, and a running sum `g` of the entries whose column counter equals the row's class less
  the chunk's first column. After the last chunk each row has `lp = g − (log l + m)` and the loss
  `(0 − (1 − exp lp)·(1 − exp lp)·(1 − exp lp)) · lp`, and the 128 losses are summed.

  The proof has three layers.
  1. The value the body computes is, by unfolding alone, ten applications of ONE step on three columns, from the
     initial columns, followed by one read-out (`KerRow.vrun`); this holds for every float instance.
  2. At the extended reals, row `p` of one vector step is the scalar step `onlineStep` on the row's 3200 entries of
     the chunk: a row reduction of a chunk reads the row's entries, a column spread over the chunk reads the row's
     entry, and the comparison of the column counter's word with the class word less the chunk's start word holds
     exactly at the column `3200·c + j = k` (no 32-bit arithmetic wraps: all numbers are below 32000).
  3. Ten such steps are `onlineState`, whose read-out is the row's loss (`onlineLoss_onlineState`), and the last
     reduction, over a block with one entry per row, is the sum over the rows.
-/
import proofs.«431238_j12627203851059_3_alg».proof.Proof.Gen.KernelIdeal.Frame
import proofs.«431238_j12627203851059_3_alg».proof.Proof.Spec
import proofs.«431238_j12627203851059_3_alg».proof.Proof.OnlineLse
import Idealize.ShloMosaic.Lib.ValueIdx
import Idealize.ShloMosaic.Lib.Pipeline.Value
import Idealize.ShloMosaic.Lib.ValueLayout
import Idealize.ShloMosaic.Lib.WholeRead
import Idealize.ShloMosaic.PureOps.Ideal.Laws
import Idealize.ShloMosaic.Lib.IdealHost

noncomputable section

open Cert.KernelIdeal Cert.KernelIdeal.Gen Idealize.ShloMosaic Idealize.ShloMosaic.ValueIdx Idealize.ShloMosaic.Tactic

namespace Cert.Focal

namespace KerRow

section Generic
variable {F : FTy → Type} [FloatOps F]

/-- The three running columns of the streaming pass: maximum, rescaled sum, class entry. -/
abbrev Cols (F : FTy → Type) [FloatOps F] : Type := FVec F S128x1 .f32 × FVec F S128x1 .f32 × FVec F S128x1 .f32

/-- The greatest entry of each row of a chunk, as a column. -/
def colMax (xc : Vec F S128x3200 .f32) : FVec F S128x1 .f32 :=
  shapeCast S128x1 (multiReduction .maximumf [1] S128 xc 0xFF800000#32 reduces_S128x3200_S128 (.inl rfl) rfl) shapeCasts_S128_S128x1

/-- The sum of each row of a chunk-shaped block, as a column. -/
def colSum (y : FVec F S128x3200 .f32) : FVec F S128x1 .f32 :=
  shapeCast S128x1 (multiReduction .add [1] S128 y 0x00000000#32 reduces_S128x3200_S128 (.inl rfl) rfl) shapeCasts_S128_S128x1

/-- The mask of a chunk's entries whose column is the row's class: the column counter equals the class less the
    chunk's first column. -/
def hitMask (t : IVec S128x1 32) (s : BitVec 32) : IVec S128x3200 1 :=
  cmpi .eq (iota .tc S128x3200 32 [1] iota_S128x3200_d1_w32)
    (broadcastTo S128x3200 (subi t (broadcast S128x1 s)) broadcasts_S128x1_S128x3200)

/-- One chunk of the streaming pass on whole columns. -/
def vstep (t : IVec S128x1 32) (st : Cols F) (s : BitVec 32) (xc : Vec F S128x3200 .f32) : Cols F :=
  (maximumf st.1 (colMax xc),
   addf (mulf st.2.1 (exp (subf st.1 (maximumf st.1 (colMax xc)))))
     (colSum (exp (subf xc (broadcastTo S128x3200 (maximumf st.1 (colMax xc)) broadcasts_S128x1_S128x3200)))),
   addf st.2.2 (colSum (select (hitMask t s) xc (broadcast S128x3200 (Scalar.ofBits .f32 0x00000000#32)))))

/-- The columns before the first chunk: −∞, 0, 0. -/
def vinit : Cols F :=
  (broadcast S128x1 (Scalar.ofBits .f32 0xFF800000#32), broadcast S128x1 (Scalar.ofBits .f32 0x00000000#32),
   broadcast S128x1 (Scalar.ofBits .f32 0x00000000#32))

/-- The log-probability column read off the final columns. -/
def vlp (st : Cols F) : FVec F S128x1 .f32 := subf st.2.2 (addf (log st.2.1) st.1)

/-- The column `1 − exp lp`. -/
def vq (st : Cols F) : FVec F S128x1 .f32 := subf (broadcast S128x1 (Scalar.ofBits .f32 0x3F800000#32)) (exp (vlp st))

/-- The column of the rows' losses. -/
def vloss (st : Cols F) : FVec F S128x1 .f32 :=
  mulf (subf (broadcast S128x1 (Scalar.ofBits .f32 0x00000000#32)) (mulf (mulf (vq st) (vq st)) (vq st))) (vlp st)

/-- The sum of the 128 losses. -/
def vfinal (st : Cols F) : F .f32 :=
  extractAt ![0, 0, 0]
    (shapeCast S1x1x1
      (multiReduction .add [1, 2] S1 (shapeCast S1x128x1 (vloss st) shapeCasts_S128x1_S1x128x1) 0x00000000#32
        reduces_S1x128x1_S1 (.inl rfl) rfl)
      shapeCasts_S1_S1x1x1)
    inpos_S1x1x1_p0_0_0

/-- The ten chunks in order, then the read-out. -/
def vrun (t : IVec S128x1 32) (s0 s1 s2 s3 s4 s5 s6 s7 s8 s9 : BitVec 32)
    (X0 X1 X2 X3 X4 X5 X6 X7 X8 X9 : Vec F S128x3200 .f32) : F .f32 :=
  vfinal (vstep t (vstep t (vstep t (vstep t (vstep t (vstep t (vstep t (vstep t (vstep t (vstep t vinit
    s0 X0) s1 X1) s2 X2) s3 X3) s4 X4) s5 X5) s6 X6) s7 X7) s8 X8) s9 X9)

/-- The block of class words as the kernel reads it. -/
def ldT (arg3 : Memref sig .tc .vmem S128x1 .i32) (harg3 : arg3.IsWhole) (x1 : Vec F S128x1 .i32) : IVec S128x1 32 :=
  shapeCast S128x1
    (View.readAt (Elt F) arg3.view (Rect.unit (s := S128x1) ![0, 0] S128x1.size inb_S128x1_S128x1_0_0).toLoadRect (harg3.unread x1))
    shapeCasts_S128x1_S128x1

/-- A chunk of 3200 columns from column `off` on, as the kernel reads it. -/
def ldX (arg2 : Memref sig .tc .vmem S128x32000 .f32) (harg2 : arg2.IsWhole) (x0 : Vec F S128x32000 .f32) (off : ℕ)
    (h : ∀ a, (![0, off] : Fin 2 → ℕ) a + S128x3200.size a ≤ S128x32000.size a) : Vec F S128x3200 .f32 :=
  View.readAt (Elt F) arg2.view (Rect.unit (s := S128x32000) ![0, off] S128x3200.size h).toLoadRect (harg2.unread x0)

theorem inb_off (c : Fin 10) : ∀ a, (![0, 3200 * c.val] : Fin 2 → ℕ) a + S128x3200.size a ≤ S128x32000.size a := by
  intro a
  have := c.isLt
  match a with
  | ⟨0, _⟩ => show 0 + 128 ≤ 128; omega
  | ⟨1, _⟩ => show 3200 * c.val + 3200 ≤ 32000; omega

/-- The run's value as the ten steps and the read-out, at the loads the kernel makes. -/
def vrunAt (arg2 : Memref sig .tc .vmem S128x32000 .f32) (harg2 : arg2.IsWhole)
    (arg3 : Memref sig .tc .vmem S128x1 .i32) (harg3 : arg3.IsWhole)
    (x0 : Vec F S128x32000 .f32) (x1 : Vec F S128x1 .i32) : F .f32 :=
  vrun (ldT arg3 harg3 x1)
    (Scalar.muli 0#32 3200#32) 3200#32 (Scalar.muli 2#32 3200#32) 9600#32 (Scalar.muli 4#32 3200#32)
    (Scalar.muli 5#32 3200#32) (Scalar.muli 6#32 3200#32) (Scalar.muli 7#32 3200#32) (Scalar.muli 8#32 3200#32)
    (Scalar.muli 9#32 3200#32)
    (ldX arg2 harg2 x0 0 (inb_off 0)) (ldX arg2 harg2 x0 3200 (inb_off 1)) (ldX arg2 harg2 x0 6400 (inb_off 2))
    (ldX arg2 harg2 x0 9600 (inb_off 3)) (ldX arg2 harg2 x0 12800 (inb_off 4)) (ldX arg2 harg2 x0 16000 (inb_off 5))
    (ldX arg2 harg2 x0 19200 (inb_off 6)) (ldX arg2 harg2 x0 22400 (inb_off 7)) (ldX arg2 harg2 x0 25600 (inb_off 8))
    (ldX arg2 harg2 x0 28800 (inb_off 9))

set_option maxRecDepth 65536 in
/-- Case A's run value is the ten steps and the read-out: the two terms differ by unfolding only. -/
theorem runA_eq (c : Dev nD) (arg2 : Memref sig .tc .vmem S128x32000 .f32) (harg2 : arg2.IsWhole)
    (arg3 : Memref sig .tc .vmem S128x1 .i32) (harg3 : arg3.IsWhole)
    (x0 : Vec F S128x32000 .f32) (x1 : Vec F S128x1 .i32) :
    kernelRun0_A.sl.r_21 (F := F) c arg2 harg2 arg3 harg3 x0 x1 = vrunAt arg2 harg2 arg3 harg3 x0 x1 := by
  sl_unfold_run_names
  rfl

set_option maxRecDepth 65536 in
/-- Case B's likewise. -/
theorem runB_eq (c : Dev nD) (arg2 : Memref sig .tc .vmem S128x32000 .f32) (harg2 : arg2.IsWhole)
    (arg3 : Memref sig .tc .vmem S128x1 .i32) (harg3 : arg3.IsWhole)
    (x0 : Vec F S128x32000 .f32) (x1 : Vec F S128x1 .i32) :
    kernelRun0_B.sl.r_21 (F := F) c arg2 harg2 arg3 harg3 x0 x1 = vrunAt arg2 harg2 arg3 harg3 x0 x1 := by
  sl_unfold_run_names
  rfl

end Generic

/-! ## At the ideal values: one row of one step -/

section AtIdeal

theorem negInf_word : (Scalar.ofBits .f32 0xFF800000#32 : Ideal .f32) = (⊥ : EReal) := by
  show Ideal.ofBits .f32 0xFF800000#32 = ⊥
  simp [Ideal.ofBits, Ideal.ieee]

theorem zero_word : (Scalar.ofBits .f32 0x00000000#32 : Ideal .f32) = (0 : EReal) := Ideal.ofBits_zero_f32

theorem one_word : (Scalar.ofBits .f32 0x3F800000#32 : Ideal .f32) = (1 : EReal) := Ideal.ofBits_one_f32

/-- Row `p` of a chunk's row reduction runs over the entries `(p, j)`. -/
theorem lift_row (p : Fin 128) (j : Fin 3200) :
    reduces_S128x3200_S128.lift (ix1 p) j = ix2 p j := by
  funext a
  match a with
  | ⟨0, _⟩ => exact Fin.ext rfl
  | ⟨1, _⟩ => exact Fin.ext rfl

/-- A row-indexed vector viewed as a column reads the row's entry. -/
theorem col_apply {α : Type} (v : S128.Idx → α) (p : Fin 128) :
    shapeCast S128x1 v shapeCasts_S128_S128x1 (ix2 p (0 : Fin 1)) = v (ix1 p) :=
  shapeCast_apply v _ _ _ (by rw [Shape.rowMajor_val_one, Shape.rowMajor_val_two]; show p.val = p.val * 1 + 0; omega)

/-- A column spread over a chunk's columns reads the row's entry. -/
theorem bcast_col_apply {α : Type} (v : S128x1.Idx → α) (p : Fin 128) (j : Fin 3200) :
    broadcastTo S128x3200 v broadcasts_S128x1_S128x3200 (ix2 p j) = v (ix2 p (0 : Fin 1)) :=
  broadcastTo_apply v _ _ _ (fun a => match a with | ⟨0, _⟩ => rfl | ⟨1, _⟩ => rfl)

theorem colMax_apply (xc : Vec Ideal S128x3200 .f32) (p : Fin 128) :
    colMax xc (ix2 p (0 : Fin 1)) = chunkMax (fun j : Fin 3200 => xc (ix2 p j)) := by
  unfold colMax
  refine (col_apply _ p).trans ?_
  refine (Ideal.multiReduction_maximumf_single (φ := .f32) xc 0xFF800000#32 reduces_S128x3200_S128 (.inl rfl) rfl
    (ix1 p)).trans ?_
  unfold chunkMax
  have e : (xc ∘ reduces_S128x3200_S128.lift (ix1 p)) = fun j : Fin 3200 => xc (ix2 p j) :=
    funext fun j => congrArg xc (lift_row p j)
  rw [e]
  exact congrArg (fun b => (Finset.univ : Finset (Fin 3200)).fold max b fun j : Fin 3200 => xc (ix2 p j)) negInf_word

theorem colSum_apply (y : FVec Ideal S128x3200 .f32) (p : Fin 128) :
    colSum y (ix2 p (0 : Fin 1)) = ∑ j : Fin 3200, y (ix2 p j) := by
  unfold colSum
  refine (col_apply _ p).trans ?_
  refine (Ideal.multiReduction_add_single (φ := .f32) y 0x00000000#32 reduces_S128x3200_S128 (.inl rfl) rfl
    (ix1 p)).trans ?_
  exact Finset.sum_congr rfl fun j _ => congrArg y (lift_row p j)

/-- The comparison's bit selects exactly where the two words are equal. -/
theorem select_cmpi_eq {α : Type} (x y : BitVec 32) (a b : α) :
    Scalar.select (IntOp.cmpi .eq x y) a b = if x = y then a else b := by
  have e : IntOp.cmpi .eq x y = BitVec.ofBool (x == y) := rfl
  unfold Scalar.select
  rw [e]
  by_cases h : x = y
  · subst h; simp
  · have hb : (x == y) = false := by simpa using h
    rw [if_neg h, hb]
    exact if_neg (by decide)

theorem hitMask_apply (t : IVec S128x1 32) (s : BitVec 32) (p : Fin 128) (j : Fin 3200) :
    hitMask t s (ix2 p j) = IntOp.cmpi .eq (BitVec.ofNat 32 j.val) (t (ix2 p (0 : Fin 1)) - s) := by
  unfold hitMask
  show IntOp.cmpi .eq (iota .tc S128x3200 32 [1] iota_S128x3200_d1_w32 (ix2 p j))
      (broadcastTo S128x3200 (subi t (broadcast S128x1 s)) broadcasts_S128x1_S128x3200 (ix2 p j)) = _
  rw [bcast_col_apply, iota_single_apply]
  rfl

/-- Row `p` of the three columns. -/
def rowOf (st : Cols Ideal) (p : Fin 128) : EReal × EReal × EReal :=
  (st.1 (ix2 p (0 : Fin 1)), st.2.1 (ix2 p (0 : Fin 1)), st.2.2 (ix2 p (0 : Fin 1)))

/-- The maximum column after one step, at a row. -/
theorem vstep_m (t : IVec S128x1 32) (st : Cols Ideal) (s : BitVec 32) (xc : Vec Ideal S128x3200 .f32) (p : Fin 128) :
    (vstep t st s xc).1 (ix2 p (0 : Fin 1))
      = max (st.1 (ix2 p (0 : Fin 1))) (chunkMax (fun j : Fin 3200 => xc (ix2 p j))) :=
  (maximumf_apply st.1 (colMax xc) (ix2 p (0 : Fin 1))).trans (congrArg (max (st.1 (ix2 p (0 : Fin 1)))) (colMax_apply xc p))

/-- The sum column after one step, at a row. -/
theorem vstep_l (t : IVec S128x1 32) (st : Cols Ideal) (s : BitVec 32) (xc : Vec Ideal S128x3200 .f32) (p : Fin 128) :
    (vstep t st s xc).2.1 (ix2 p (0 : Fin 1))
      = st.2.1 (ix2 p (0 : Fin 1))
          * Ideal.exp (st.1 (ix2 p (0 : Fin 1)) - max (st.1 (ix2 p (0 : Fin 1))) (chunkMax (fun j : Fin 3200 => xc (ix2 p j))))
        + ∑ j : Fin 3200, Ideal.exp (xc (ix2 p j) - max (st.1 (ix2 p (0 : Fin 1))) (chunkMax (fun j : Fin 3200 => xc (ix2 p j)))) := by
  have hm := vstep_m t st s xc p
  have e0 : (vstep t st s xc).2.1 (ix2 p (0 : Fin 1))
      = st.2.1 (ix2 p (0 : Fin 1)) * Ideal.exp (st.1 (ix2 p (0 : Fin 1)) - (vstep t st s xc).1 (ix2 p (0 : Fin 1)))
        + colSum (exp (subf xc (broadcastTo S128x3200 (vstep t st s xc).1 broadcasts_S128x1_S128x3200))) (ix2 p (0 : Fin 1)) :=
    rfl
  rw [e0, colSum_apply, hm]
  refine congrArg _ (Finset.sum_congr rfl fun j _ => ?_)
  have e1 : exp (subf xc (broadcastTo S128x3200 (vstep t st s xc).1 broadcasts_S128x1_S128x3200)) (ix2 p j)
      = Ideal.exp (xc (ix2 p j) - broadcastTo S128x3200 (vstep t st s xc).1 broadcasts_S128x1_S128x3200 (ix2 p j)) := rfl
  rw [e1, bcast_col_apply, hm]

/-- The class-entry column after one step, at a row. -/
theorem vstep_g (t : IVec S128x1 32) (st : Cols Ideal) (s : BitVec 32) (xc : Vec Ideal S128x3200 .f32) (p : Fin 128) :
    (vstep t st s xc).2.2 (ix2 p (0 : Fin 1))
      = st.2.2 (ix2 p (0 : Fin 1))
        + ∑ j : Fin 3200, if BitVec.ofNat 32 j.val = t (ix2 p (0 : Fin 1)) - s then xc (ix2 p j) else 0 := by
  have e0 : (vstep t st s xc).2.2 (ix2 p (0 : Fin 1))
      = st.2.2 (ix2 p (0 : Fin 1))
        + colSum (select (hitMask t s) xc (broadcast S128x3200 (Scalar.ofBits .f32 0x00000000#32))) (ix2 p (0 : Fin 1)) := rfl
  rw [e0, colSum_apply]
  refine congrArg _ (Finset.sum_congr rfl fun j _ => ?_)
  have e1 : select (hitMask t s) xc (broadcast S128x3200 (Scalar.ofBits .f32 0x00000000#32 : Ideal .f32)) (ix2 p j)
      = Scalar.select (hitMask t s (ix2 p j)) (xc (ix2 p j)) (Scalar.ofBits .f32 0x00000000#32 : Ideal .f32) := rfl
  rw [e1, hitMask_apply, select_cmpi_eq, zero_word]

/-- ONE STEP AT A ROW: the scalar step on the row's entries of the chunk, the class entry being the one whose
    column counter is the row's class word less the chunk's start word. -/
theorem vstep_row (t : IVec S128x1 32) (st : Cols Ideal) (s : BitVec 32) (xc : Vec Ideal S128x3200 .f32) (p : Fin 128) :
    rowOf (vstep t st s xc) p
      = onlineStep (rowOf st p) (fun j : Fin 3200 => xc (ix2 p j))
          (fun j : Fin 3200 => BitVec.ofNat 32 j.val = t (ix2 p (0 : Fin 1)) - s) :=
  Prod.ext (vstep_m t st s xc p) (Prod.ext (vstep_l t st s xc p) (vstep_g t st s xc p))

/-! ## The loads -/

/-- A chunk's load reads the block at the chunk's columns. -/
theorem ldX_apply (arg2 : Memref sig .tc .vmem S128x32000 .f32) (harg2 : arg2.IsWhole) (x0 : Vec Ideal S128x32000 .f32)
    (off : ℕ) (h : ∀ a, (![0, off] : Fin 2 → ℕ) a + S128x3200.size a ≤ S128x32000.size a)
    (p : Fin 128) (j : Fin 3200) (hj : off + j.val < 32000) :
    ldX arg2 harg2 x0 off h (ix2 p j) = x0 (ix2 p (⟨off + j.val, hj⟩ : Fin 32000)) := by
  unfold ldX
  refine (Memref.IsWhole.readAt_unread harg2 x0 _ _).trans (congrArg x0 ?_)
  funext a
  match a with
  | ⟨0, _⟩ => exact Fin.ext (show 0 + 1 * p.val = p.val by omega)
  | ⟨1, _⟩ => exact Fin.ext (show off + 1 * j.val = off + j.val by omega)

/-- The class block's load reads the class words. -/
theorem ldT_apply (arg3 : Memref sig .tc .vmem S128x1 .i32) (harg3 : arg3.IsWhole) (x1 : Vec Ideal S128x1 .i32) (p : Fin 128) :
    ldT arg3 harg3 x1 (ix2 p (0 : Fin 1)) = x1 (ix2 p (0 : Fin 1)) := by
  unfold ldT
  refine (shapeCast_apply _ shapeCasts_S128x1_S128x1 (ix2 p (0 : Fin 1)) (ix2 p (0 : Fin 1)) rfl).trans ?_
  refine (Memref.IsWhole.readAt_unread harg3 x1 _ _).trans (congrArg x1 ?_)
  funext a
  match a with
  | ⟨0, _⟩ => exact Fin.ext (show 0 + 1 * p.val = p.val by omega)
  | ⟨1, _⟩ => exact Fin.ext (show 0 + 1 * 0 = 0 by omega)

/-! ## The class entry of a chunk -/

/-- Column `j` of chunk `c` is the class `k` exactly when the column counter's word is the class word less the
    chunk's start word: nothing wraps below 2³². -/
theorem hit_iff (c k j : ℕ) (hc : c < 10) (hk : k < 32000) (hj : j < 3200) :
    BitVec.ofNat 32 j = BitVec.ofNat 32 k - BitVec.ofNat 32 (3200 * c) ↔ 3200 * c + j = k := by
  constructor
  · intro h
    have h' := congrArg BitVec.toNat h
    simp only [BitVec.toNat_sub, BitVec.toNat_ofNat] at h'
    omega
  · intro h
    apply BitVec.eq_of_toNat_eq
    simp only [BitVec.toNat_sub, BitVec.toNat_ofNat]
    omega

/-- The scalar step does not depend on how the class entry is recognised. -/
theorem onlineStep_congr {w : ℕ} (σ : EReal × EReal × EReal) (xc : Fin w → EReal) (hit hit' : Fin w → Prop)
    [DecidablePred hit] [DecidablePred hit'] (h : ∀ j, hit j ↔ hit' j) :
    onlineStep σ xc hit = onlineStep σ xc hit' := by
  have e : (∑ j, if hit j then xc j else 0) = ∑ j, if hit' j then xc j else 0 :=
    Finset.sum_congr rfl fun j _ => if_congr (h j) rfl rfl
  unfold onlineStep
  rw [e]

/-! ## The ten chunks of a row -/

section Rows
variable (xr : Fin 128 → Fin 32000 → ℝ) (kr : Fin 128 → Fin 32000)
  (arg2 : Memref sig .tc .vmem S128x32000 .f32) (harg2 : arg2.IsWhole)
  (x0 : Vec Ideal S128x32000 .f32) (hx : ∀ p j, x0 (ix2 p j) = ((xr p j : ℝ) : EReal))
  (t : IVec S128x1 32) (p : Fin 128) (ht : t (ix2 p (0 : Fin 1)) = BitVec.ofNat 32 (kr p).val)

include hx ht in
/-- Chunk `c` of row `p`: the vector step at the kernel's load and start word is the scalar step on the row's chunk. -/
theorem step_chunk (st : Cols Ideal) (σ : EReal × EReal × EReal) (hσ : rowOf st p = σ) (c : Fin 10)
    (off : ℕ) (hoff : off = 3200 * c.val) (h : ∀ a, (![0, off] : Fin 2 → ℕ) a + S128x3200.size a ≤ S128x32000.size a)
    (s : BitVec 32) (hs : s = BitVec.ofNat 32 (3200 * c.val)) :
    rowOf (vstep t st s (ldX arg2 harg2 x0 off h)) p
      = onlineStep σ (chunk (xr p) c) (fun j : Fin 3200 => 3200 * c.val + j.val = (kr p).val) := by
  subst hoff hs hσ
  rw [vstep_row]
  have e1 : (fun j : Fin 3200 => ldX arg2 harg2 x0 (3200 * c.val) h (ix2 p j)) = chunk (xr p) c :=
    funext fun j => by
      rw [ldX_apply arg2 harg2 x0 _ h p j (by have := c.isLt; have := j.isLt; omega), hx]
      rfl
  rw [e1, ht]
  exact onlineStep_congr _ _ _ _ fun j => hit_iff c.val (kr p).val j.val c.isLt (kr p).isLt j.isLt

/-- The columns before the first chunk, at a row. -/
theorem vinit_row : rowOf (vinit (F := Ideal)) p = ((⊥ : EReal), (0 : EReal), (0 : EReal)) := by
  show ((Scalar.ofBits .f32 0xFF800000#32 : Ideal .f32), (Scalar.ofBits .f32 0x00000000#32 : Ideal .f32),
    (Scalar.ofBits .f32 0x00000000#32 : Ideal .f32)) = _
  rw [negInf_word, zero_word]

end Rows

/-! ## The read-out -/

/-- A row's loss off the final columns. -/
theorem vloss_row (st : Cols Ideal) (p : Fin 128) : vloss st (ix2 p (0 : Fin 1)) = onlineLoss (rowOf st p) := by
  have e : vloss st (ix2 p (0 : Fin 1))
      = ((Scalar.ofBits .f32 0x00000000#32 : Ideal .f32)
          - (((Scalar.ofBits .f32 0x3F800000#32 : Ideal .f32) - Ideal.exp ((rowOf st p).2.2 - (Ideal.log (rowOf st p).2.1 + (rowOf st p).1)))
              * ((Scalar.ofBits .f32 0x3F800000#32 : Ideal .f32) - Ideal.exp ((rowOf st p).2.2 - (Ideal.log (rowOf st p).2.1 + (rowOf st p).1))))
            * ((Scalar.ofBits .f32 0x3F800000#32 : Ideal .f32) - Ideal.exp ((rowOf st p).2.2 - (Ideal.log (rowOf st p).2.1 + (rowOf st p).1))))
        * ((rowOf st p).2.2 - (Ideal.log (rowOf st p).2.1 + (rowOf st p).1)) := rfl
  rw [e, zero_word, one_word]
  rfl

/-- The [1,128,1] block's indices are the 128 rows. -/
def rowEquiv : S1x128x1.Idx ≃ Fin 128 where
  toFun i := i 1
  invFun p := ix3 (0 : Fin 1) p (0 : Fin 1)
  left_inv i := by
    funext a
    match a with
    | ⟨0, _⟩ => exact Fin.ext (by have h0 : (i 0).val < 1 := (i 0).isLt; show 0 = (i 0).val; omega)
    | ⟨1, _⟩ => rfl
    | ⟨2, _⟩ => exact Fin.ext (by have h2 : (i 2).val < 1 := (i 2).isLt; show 0 = (i 2).val; omega)
  right_inv _ := rfl

/-- The read-out is the sum of the rows' losses. -/
theorem vfinal_eq (st : Cols Ideal) : vfinal st = ∑ p : Fin 128, onlineLoss (rowOf st p) := by
  unfold vfinal extractAt
  refine (shapeCast_apply _ shapeCasts_S1_S1x1x1 _ (ix1 (0 : Fin 1)) ?_).trans ?_
  · rw [Shape.rowMajor_val_one, Shape.rowMajor_val_three]; rfl
  refine (Ideal.multiReduction_add_total (φ := .f32) _ 0x00000000#32 reduces_S1x128x1_S1
    (fun b => match b with | ⟨0, _⟩ => rfl) (.inl rfl) rfl _).trans ?_
  refine (Equiv.sum_comp rowEquiv.symm _).symm.trans (Finset.sum_congr rfl fun p _ => ?_)
  show shapeCast S1x128x1 (vloss st) shapeCasts_S128x1_S1x128x1 (ix3 (0 : Fin 1) p (0 : Fin 1)) = _
  refine (shapeCast_apply _ shapeCasts_S128x1_S1x128x1 _ (ix2 p (0 : Fin 1)) ?_).trans (vloss_row st p)
  rw [Shape.rowMajor_val_two, Shape.rowMajor_val_three]
  show p.val * 1 + 0 = (0 * 128 + p.val) * 1 + 0
  omega

/-! ## The whole run -/

section Main
variable (xr : Fin 128 → Fin 32000 → ℝ) (kr : Fin 128 → Fin 32000)
  (arg2 : Memref sig .tc .vmem S128x32000 .f32) (harg2 : arg2.IsWhole)
  (arg3 : Memref sig .tc .vmem S128x1 .i32) (harg3 : arg3.IsWhole)
  (x0 : Vec Ideal S128x32000 .f32) (x1 : Vec Ideal S128x1 .i32)
  (hx : ∀ p j, x0 (ix2 p j) = ((xr p j : ℝ) : EReal))
  (ht : ∀ p, x1 (ix2 p (0 : Fin 1)) = BitVec.ofNat 32 (kr p).val)

include hx ht in
/-- The ten steps and the read-out, at the kernel's loads of a block of real logits and in-range classes, are the sum
    of the 128 rows' losses. -/
theorem vrunAt_eq : vrunAt arg2 harg2 arg3 harg3 x0 x1 = ((∑ p, rowLoss (xr p) (kr p) : ℝ) : EReal) := by
  unfold vrunAt vrun
  rw [vfinal_eq, ← OnlineLse.coe_finset_sum]
  refine Finset.sum_congr rfl fun p _ => ?_
  rw [← onlineLoss_onlineState]
  refine congrArg onlineLoss ?_
  have ht' : ldT arg3 harg3 x1 (ix2 p (0 : Fin 1)) = BitVec.ofNat 32 (kr p).val :=
    (ldT_apply arg3 harg3 x1 p).trans (ht p)
  have S := fun st σ hσ c off hoff h s hs =>
    step_chunk xr kr arg2 harg2 x0 hx (ldT arg3 harg3 x1) p ht' st σ hσ c off hoff h s hs
  exact S _ _ (S _ _ (S _ _ (S _ _ (S _ _ (S _ _ (S _ _ (S _ _ (S _ _ (S _ _ (vinit_row p)
    0 0 (by decide) _ _ (by decide)) 1 3200 (by decide) _ _ (by decide)) 2 6400 (by decide) _ _ (by decide))
    3 9600 (by decide) _ _ (by decide)) 4 12800 (by decide) _ _ (by decide)) 5 16000 (by decide) _ _ (by decide))
    6 19200 (by decide) _ _ (by decide)) 7 22400 (by decide) _ _ (by decide)) 8 25600 (by decide) _ _ (by decide))
    9 28800 (by decide) _ _ (by decide)

end Main

end AtIdeal
end KerRow

/-- WHAT ONE GRID POINT ADDS, case A: on a block of real logits `xr` and in-range classes `kr` the value the
    kernel's body computes for its accumulator's increment is the sum of the 128 rows' focal losses. -/
theorem partialA (c : Dev nD) (arg2 : Memref sig .tc .vmem S128x32000 .f32) (harg2 : arg2.IsWhole)
    (arg3 : Memref sig .tc .vmem S128x1 .i32) (harg3 : arg3.IsWhole)
    (x0 : Vec Ideal S128x32000 .f32) (x1 : Vec Ideal S128x1 .i32)
    (xr : Fin 128 → Fin 32000 → ℝ) (kr : Fin 128 → Fin 32000)
    (hx : ∀ p j, x0 (ix2 p j) = ((xr p j : ℝ) : EReal))
    (ht : ∀ p, x1 (ix2 p (0 : Fin 1)) = BitVec.ofNat 32 (kr p).val) :
    kernelRun0_A.sl.r_21 (F := Ideal) c arg2 harg2 arg3 harg3 x0 x1 = ((∑ p, rowLoss (xr p) (kr p) : ℝ) : EReal) :=
  (KerRow.runA_eq c arg2 harg2 arg3 harg3 x0 x1).trans (KerRow.vrunAt_eq xr kr arg2 harg2 arg3 harg3 x0 x1 hx ht)

/-- The same in case B. -/
theorem partialB (c : Dev nD) (arg2 : Memref sig .tc .vmem S128x32000 .f32) (harg2 : arg2.IsWhole)
    (arg3 : Memref sig .tc .vmem S128x1 .i32) (harg3 : arg3.IsWhole)
    (x0 : Vec Ideal S128x32000 .f32) (x1 : Vec Ideal S128x1 .i32)
    (xr : Fin 128 → Fin 32000 → ℝ) (kr : Fin 128 → Fin 32000)
    (hx : ∀ p j, x0 (ix2 p j) = ((xr p j : ℝ) : EReal))
    (ht : ∀ p, x1 (ix2 p (0 : Fin 1)) = BitVec.ofNat 32 (kr p).val) :
    kernelRun0_B.sl.r_21 (F := Ideal) c arg2 harg2 arg3 harg3 x0 x1 = ((∑ p, rowLoss (xr p) (kr p) : ℝ) : EReal) :=
  (KerRow.runB_eq c arg2 harg2 arg3 harg3 x0 x1).trans (KerRow.vrunAt_eq xr kr arg2 harg2 arg3 harg3 x0 x1 hx ht)

end Cert.Focal
end
-- ==== Proof.KerAccum.lean ====
/-
  The kernel's accumulator across the grid, and its result.

  The grid has 64 points, 32 for each of the two cores' rows of the output f32[2, 1, 1]; point `t` handles rows
  `128 t … 128 t + 127` and computes from them ONE number, the sum of those rows' losses (its partial sum). A core's first
  point (`t % 32 = 0`) stores zero in the output block, reads it back and adds its partial sum; every other point adds its
  partial sum to what the point before left. So after point `t` the block holds the sum of the partial sums of the points
  `32 (t / 32) … t`, and the block written back after a core's last point holds the sum over the core's 32 points. The
  host then adds the two cores' numbers to zero.
-/
import proofs.«431238_j12627203851059_3_alg».proof.Proof.Gen.KernelIdeal.Frame
import Idealize.ShloMosaic.Lib.ValueIdx
import Idealize.ShloMosaic.Lib.Pipeline.Value
import Idealize.ShloMosaic.PureOps.Ideal.Laws
import Idealize.ShloMosaic.Lib.IdealHost
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ) (ρ : Dev nD → PrngReg)

theorem hz3 : (![0, 0, 0] : Fin 3 → Nat) = fun _ => 0 := funext fun a => by fin_cases a <;> rfl

/-- A core's first point: the block is zeroed, read back, and the point's partial sum added: `0 + s`. -/
theorem outA_apply (c : Dev nD) (i : grid0.Coords) (a2 : Memref sig .tc .vmem S128x32000 .f32) (h2 : a2.IsWhole)
    (a3 : Memref sig .tc .vmem S128x1 .i32) (h3 : a3.IsWhole) (a4 : Memref sig .tc .vmem S1x1x1 .f32) (h4 : a4.IsWhole)
    (hc : cond0_0 i) (x0 : Vec Ideal S128x32000 .f32) (x1 : Vec Ideal S128x1 .i32) (j : S1x1x1.Idx) :
    out0_A_2 (F := Ideal) c i a2 h2 a3 h3 a4 h4 hc x0 x1 j = 0 + kernelRun0_A.sl.r_21 (F := Ideal) c a2 h2 a3 h3 x0 x1 := by
  unfold out0_A_2
  rw [View.read_writes_eq_canon _ _ _ (cover0_A_2 c i a2 h2 a3 h3 a4 h4 hc x0 x1)]
  unfold kernelRun0_A
  dsimp only
  rw [View.canon_cons_unit_zero (S := S1x1x1) hz3]
  unfold kernelRun0_A.sl.v274 kernelRun0_A.sl.H2_1
  rw [View.readCov_unit_zero (S := S1x1x1) _ hz3]
  unfold k0_pay1 k0_pay2
  simp only [shapeCast_self, addf_apply, broadcast_apply]
  rw [Ideal.ofBits_def, Ideal.ofBits_zero_f32]

/-- Any other point: the block holds `xo`, and the point's partial sum is added to it: `xo + s`. -/
theorem outB_apply (c : Dev nD) (i : grid0.Coords) (a2 : Memref sig .tc .vmem S128x32000 .f32) (h2 : a2.IsWhole)
    (a3 : Memref sig .tc .vmem S128x1 .i32) (h3 : a3.IsWhole) (a4 : Memref sig .tc .vmem S1x1x1 .f32) (h4 : a4.IsWhole)
    (hc : ¬cond0_0 i) (x0 : Vec Ideal S128x32000 .f32) (x1 : Vec Ideal S128x1 .i32) (xo : Vec Ideal S1x1x1 .f32) (j : S1x1x1.Idx) :
    out0_B_2 (F := Ideal) c i a2 h2 a3 h3 a4 h4 hc x0 x1 xo j = xo j + kernelRun0_B.sl.r_21 (F := Ideal) c a2 h2 a3 h3 x0 x1 := by
  unfold out0_B_2
  rw [View.read_writes_eq_canon _ _ _ (cover0_B_2 c i a2 h2 a3 h3 a4 h4 hc x0 x1 xo)]
  unfold kernelRun0_B
  dsimp only
  rw [View.canon_unit_zero (S := S1x1x1) hz3]
  unfold k0_pay1
  simp only [View.readAt_eq_ld, h4.read_unread, View.ld_unit_zero (S := S1x1x1) hz3, shapeCast_self, addf_apply, broadcast_apply]

section Accumulate

-- The partial sum of point `t` on device `c`, as a real number, and that both cases' runs compute it.
variable (P : Dev nD → ℕ → ℝ)
variable (hA : ∀ (c : Dev nD) (t : Fin cfg0.N), kernelRun0_A.sl.r_21 (F := Ideal) c (ms0_0 t) (hs0_0 t) (ms0_1 t) (hs0_1 t) (iblk m c 0 t) (iblk m c 1 t) = ((P c t.val : ℝ) : EReal))
variable (hB : ∀ (c : Dev nD) (t : Fin cfg0.N), kernelRun0_B.sl.r_21 (F := Ideal) c (ms0_0 t) (hs0_0 t) (ms0_1 t) (hs0_1 t) (iblk m c 0 t) (iblk m c 1 t) = ((P c t.val : ℝ) : EReal))

include hA hB in
/-- After point `n` the output block holds the sum of the partial sums of its core's points up to `n`. -/
theorem outsAt_eq (c : Dev nD) : ∀ (n : ℕ) (h : n < cfg0.N) (j : S1x1x1.Idx),
    outsAt0 m c n h j = ((∑ i ∈ Finset.range (n % 32 + 1), P c (32 * (n / 32) + i) : ℝ) : EReal)
  | 0, h, j => by
    rw [outsAt0_A m c ⟨0, h⟩ rfl, outA_apply, hA c ⟨0, h⟩]
    simp
  | n + 1, h, j => by
    by_cases h0 : (n + 1) % 32 = 0
    · rw [outsAt0_A m c ⟨n + 1, h⟩ h0, outA_apply, hA c ⟨n + 1, h⟩]
      have e : 32 * ((n + 1) / 32) = n + 1 := by omega
      rw [h0, e]; simp
    · rw [outsAt0_B m c ⟨n + 1, h⟩ h0, outB_apply, hB c ⟨n + 1, h⟩]
      show outsAt0 m c n _ j + _ = _
      rw [outsAt_eq c n _ j]
      have e1 : (n + 1) % 32 = n % 32 + 1 := by omega
      have e2 : (n + 1) / 32 = n / 32 := by omega
      have e3 : 32 * (n / 32) + (n % 32 + 1) = n + 1 := by omega
      rw [e1, e2, Finset.sum_range_succ _ (n % 32 + 1), EReal.coe_add, e3]

/-- What the result array f32[2, 1, 1] ends holding: each core's sum over its 32 points. -/
abbrev coreSums (c : Dev nD) : Buf (Elt Ideal) ((c : Thread nD τ).loc main_v1) :=
  fun j : S2x1x1.Idx => ((∑ i ∈ Finset.range 32, P c (32 * (j 0).val + i) : ℝ) : EReal)

/-- The output block of point `t` is block `t / 32` along the array's first axis — decided over the grid. -/
theorem idx2_0 : ∀ t : Fin cfg0.N, win0_2.index t (0 : Fin 3) = t.val / 32 :=
  (by decide +kernel : ∀ t : Fin grid0.N, win0_2.index t (0 : Fin 3) = t.val / 32)

/-- Each of the two blocks is some writing-back point's. -/
theorem idx2_onto : ∀ q : Fin 2, ∃ t : Fin cfg0.N, t.val % 32 = 31 ∧ win0_2.index t = ![q.val, 0, 0] :=
  (by decide +kernel : ∀ q : Fin 2, ∃ t : Fin grid0.N, t.val % 32 = 31 ∧ win0_2.index t = ![q.val, 0, 0])

include hA hB in
/-- A core's last point writes back the core's sum: block `t / 32` of `coreSums`. -/
theorem flushed_eq (c : Dev nD) (t : Fin cfg0.N) (hf : (cfg0.win 2).flush t = true) :
    (dats m 0 c).flushed 2 t = ((cfg0.win 2).blk t).view.read (Elt Ideal) (coreSums P c) := by
  have h31 : t.val % 32 = 31 := (flush0_2 t).mp hf
  show (cfg0.win 2).cut (grid0.coords t) ((dats m 0 c).after 2 t) = _
  rw [after0_2]
  funext j
  refine (outsAt_eq m P hA hB c t.val t.isLt _).trans ?_
  show _ = ((∑ i ∈ Finset.range 32, P c (32 * ((((cfg0.win 2).blk t).view.emb j) 0).val + i) : ℝ) : EReal)
  have e : ((((cfg0.win 2).blk t).view.emb j) 0).val = t.val / 32 := by
    show win0_2.index t (0 : Fin 3) * 1 + 1 * (j 0).val = _
    have hj : (j 0).val < 1 := (j 0).isLt
    rw [idx2_0 t]; omega
  rw [e, h31]

/-- An index of the array is in point `t`'s block iff each coordinate is in the block's range on its axis. -/
theorem mem_blk2 (t : Fin cfg0.N) (i : S2x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v1).slice (win0_2.rect t)).set ↔ _
  rw [View.set_slice_whole, Rect.mem_set_unit]
  exact Iff.rfl

/-- Every entry of the array is in a writing-back point's block. -/
theorem cover (i : S2x1x1.Idx) : ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 1 := (i 2).isLt
  obtain ⟨t, h31, ht⟩ := idx2_onto ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, (flush0_2 t).mpr h31, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 1 ≤ (i 2).val ∧ (i 2).val < win0_2.index t (2 : Fin 3) * 1 + 1; omega

include hA hB in
/-- So the result array of the region ends holding the two cores' sums. -/
theorem final (c : Dev nD) : (dats m 0 c).arrAt 2 cfg0.N = coreSums P c :=
  (dats m 0 c).arrAt_eq_of_cover 2 (coreSums P c) (flushed_eq m P hA hB c) cover

/-- The entries of an array of shape [2, 1, 1] are its two rows. -/
def idxCore : S2x1x1.Idx ≃ Fin 2 where
  toFun j := j 0
  invFun q := ix3 q (0 : Fin 1) (0 : Fin 1)
  left_inv j := by
    funext a
    apply Fin.ext
    match a with
    | ⟨0, _⟩ => rfl
    | ⟨1, _⟩ => have h : (j 1).val < 1 := (j 1).isLt; show (0 : ℕ) = (j 1).val; omega
    | ⟨2, _⟩ => have h : (j 2).val < 1 := (j 2).isLt; show (0 : ℕ) = (j 2).val; omega
  right_inv q := rfl

/-- A sum of coerced reals over an initial segment of the naturals is the coerced sum. -/
theorem coe_sum_range (f : ℕ → ℝ) (n : ℕ) :
    ∑ i ∈ Finset.range n, ((f i : ℝ) : EReal) = ((∑ i ∈ Finset.range n, f i : ℝ) : EReal) := by
  induction n with
  | zero => simp
  | succ n ih => rw [Finset.sum_range_succ, Finset.sum_range_succ, ih, EReal.coe_add]

open Idealize.ShloMosaic.StableHlo in
include hA hB in
/-- The host adds the two cores' sums to zero: the sum of all 64 partial sums. -/
theorem tail_eq (c : Dev nD) (i : S_.Idx) :
    Pipeline.afterTail₀ cfgs (dats m) 0 (V0 m) [hostOps1] c main_v2 i
      = ((∑ cc ∈ Finset.range 2, ∑ k ∈ Finset.range 32, P c (32 * cc + k) : ℝ) : EReal) := by
  unfold Pipeline.afterTail₀
  show StableHlo.after hostOps1 _ (Proc.devRef .tc main_v2) i = _
  after_results
  have hw : Pipeline.withArrays (cfgs 0).spec c (V0 m c) (fun w => (dats m 0 c).arrAt w (cfgs 0).N) (Proc.devRef .tc main_v1) = coreSums P c :=
    (Pipeline.withArrays_arr spec0 launch0.win.arr_inj c _ _ 2).trans (final m P hA hB c)
  rw [hw]
  simp only [Host.reduceAdd, Ideal.hostReduceAdd_def]
  refine (Ideal.hostReduceAdd_total reducesTo_S2x1x1_S_d0_1_2 (fun b => b.elim0) _ _ i).trans ?_
  rw [constant_apply, Ideal.ofBits_zero_f32, zero_add]
  refine (Fintype.sum_equiv idxCore _ (fun q : Fin 2 => ((∑ k ∈ Finset.range 32, P c (32 * q.val + k) : ℝ) : EReal)) (fun j => rfl)).trans ?_
  refine (Finset.sum_range (fun cc => ((∑ k ∈ Finset.range 32, P c (32 * cc + k) : ℝ) : EReal))).symm.trans ?_
  exact coe_sum_range _ 2

include hA hB in
/-- The kernel's run, read: its result is the sum of the 64 points' partial sums; its arguments end unchanged. -/
theorem run : θ_run defs (onTc (τ := τ) (main (F := Ideal))) ⟨m, fun _ => 0, ρ⟩ fun r => ∀ c : Dev nD,
      r.2.mem ((c.tc : Thread nD τ).loc main_v2)
        = (fun _ => ((∑ cc ∈ Finset.range 2, ∑ k ∈ Finset.range 32, P c (32 * cc + k) : ℝ) : EReal) : Buf (Elt Ideal) ((c.tc : Thread nD τ).loc main_v2))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 (by decide) (by decide))).trans (funext fun i => tail_eq m P hA hB c i),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Accumulate

end Cert.KernelIdeal.Acc

end
-- ==== Proof.KerBlocks.lean ====
import proofs.«431238_j12627203851059_3_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.Acc

open Cert.KernelIdeal Cert.KernelIdeal.Gen

variable (m : (ℓ : Loc nD τ sig) → Buf (Elt Ideal) ℓ)

/-- Both input windows' block at point `t` is block `t` along the rows — decided over the grid. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- The logits block and the class block of point `t`, at their literal types. -/
abbrev xblk (c : Dev nD) (t : Fin cfg0.N) : Vec Ideal S128x32000 .f32 := iblk m c 0 t
abbrev tblk (c : Dev nD) (t : Fin cfg0.N) : Vec Ideal S128x1 .i32 := iblk m c 1 t

/-- Row `p` of point `t`'s logits block is row `128 t + p` of the logits. -/
theorem xblk_apply (c : Dev nD) (t : Fin cfg0.N) (p : Fin 128) (j : Fin 32000) (h : 128 * t.val + p.val < 8192) :
    xblk m c t (ix2 p j) = m ((c : Thread nD τ).loc main_arg0) (ix2 (⟨128 * t.val + p.val, h⟩ : Fin 8192) j) := by
  obtain ⟨e0, e1⟩ := idx0 t
  show V m c main_arg0 (((cfg0.win 0).blk t).view.emb (ix2 p j)) = _
  rw [V_main_arg0]
  congr 1
  funext a; apply Fin.ext
  match a with
  | ⟨0, _⟩ => show win0_0.index t (0 : Fin 2) * 128 + 1 * p.val = 128 * t.val + p.val; rw [e0]; omega
  | ⟨1, _⟩ => show win0_0.index t (1 : Fin 2) * 32000 + 1 * j.val = j.val; rw [e1]; omega

open Idealize.ShloMosaic.StableHlo in
/-- The region finds the class indices as the host reshaped them: the column of the vector. -/
theorem V_main_v0 (c : Dev nD) : (V m c main_v0 : S8192x1.Idx → Elt Ideal .i32) = shapeCast S8192x1 (m ((c : Thread nD τ).loc main_arg1)) shapeCasts_S8192_S8192x1 := by
  show StableHlo.after hostOps0 (fun b => m (c, b)) (Proc.devRef .tc main_v0) = _
  after_results
  rfl

/-- Row `p` of point `t`'s class block is entry `128 t + p` of the class indices. -/
theorem tblk_apply (c : Dev nD) (t : Fin cfg0.N) (p : Fin 128) (h : 128 * t.val + p.val < 8192) :
    tblk m c t (ix2 p (0 : Fin 1)) = m ((c : Thread nD τ).loc main_arg1) (ix1 (⟨128 * t.val + p.val, h⟩ : Fin 8192)) := by
  obtain ⟨e0, e1⟩ := idx1 t
  show V m c main_v0 (((cfg0.win 1).blk t).view.emb (ix2 p (0 : Fin 1))) = _
  rw [V_main_v0]
  refine shapeCast_apply _ _ _ (ix1 (⟨128 * t.val + p.val, h⟩ : Fin 8192)) ?_
  rw [Shape.rowMajor_val_one, Shape.rowMajor_val_two]
  show 128 * t.val + p.val = (win0_1.index t (0 : Fin 2) * 128 + 1 * p.val) * 1 + (win0_1.index t (1 : Fin 2) * 1 + 1 * 0)
  rw [e0, e1]; omega

end Cert.KernelIdeal.Acc

end
-- ==== Proof.KerValue.lean ====
/-
  The kernel's result as one real number.

  Point `t` of the grid handles rows `128 t … 128 t + 127`; what it adds to its core's accumulator is the sum of those
  rows' losses. The cores' accumulators are added by the host. Regrouping the 8192 rows as 2 cores × 32 points × 128 rows,
  the result is the sum of all rows' losses.
-/
import proofs.«431238_j12627203851059_3_alg».proof.Proof.KerAccum
import proofs.«431238_j12627203851059_3_alg».proof.Proof.KerBlocks
import proofs.«431238_j12627203851059_3_alg».proof.Proof.Spec
import proofs.«431238_j12627203851059_3_alg».proof.Proof.OnlineLse

set_option maxRecDepth 16384

noncomputable section

open Idealize.ShloMosaic Idealize.ShloMosaic.TcCoe Idealize.SL.Sem Idealize.ShloMosaic.ValueIdx

namespace Cert.KernelIdeal.Acc

open Cert.KernelIdeal Cert.KernelIdeal.Gen Cert.Focal

/-- The loss of row `r` (zero past the last row). -/
def rowF (xr : Fin 8192 → Fin 32000 → ℝ) (kr : Fin 8192 → Fin 32000) (r : ℕ) : ℝ :=
  if h : r < 8192 then rowLoss (xr ⟨r, h⟩) (kr ⟨r, h⟩) else 0

/-- The partial sum of point `t`: the losses of its 128 rows. -/
def pointSum (xr : Fin 8192 → Fin 32000 → ℝ) (kr : Fin 8192 → Fin 32000) (t : ℕ) : ℝ :=
  ∑ p ∈ Finset.range 128, rowF xr kr (128 * t + p)

theorem pointSum_eq (xr : Fin 8192 → Fin 32000 → ℝ) (kr : Fin 8192 → Fin 32000) (t : ℕ) (ht : t < 64) :
    pointSum xr kr t = ∑ p : Fin 128, rowLoss (xr ⟨128 * t + p.val, by have := p.isLt; omega⟩) (kr ⟨128 * t + p.val, by have := p.isLt; omega⟩) := by
  unfold pointSum
  rw [Finset.sum_range]
  refine Finset.sum_congr rfl fun p _ => ?_
  unfold rowF
  rw [dif_pos (by have := p.isLt; omega)]

/-- The 64 points' partial sums add up to the sum over all 8192 rows. -/
theorem total_eq (xr : Fin 8192 → Fin 32000 → ℝ) (kr : Fin 8192 → Fin 32000) :
    ∑ cc ∈ Finset.range 2, ∑ k ∈ Finset.range 32, pointSum xr kr (32 * cc + k) = ∑ r : Fin 8192, rowLoss (xr r) (kr r) := by
  have e : (∑ r : Fin 8192, rowLoss (xr r) (kr r)) = ∑ r ∈ Finset.range 8192, rowF xr kr r := by
    rw [Finset.sum_range]
    refine Finset.sum_congr rfl fun r _ => ?_
    unfold rowF
    rw [dif_pos r.isLt]
  rw [e, sum_rows_by_blocks (rowF xr kr)]
  refine Finset.sum_congr rfl fun cc _ => Finset.sum_congr rfl fun k _ => ?_
  unfold pointSum
  refine Finset.sum_congr rfl fun p _ => ?_
  congr 1
  ring

section Value

variable (m : (ℓ : Loc nD τ sig) → Buf (Elt Ideal) ℓ) (ρ : Dev nD → PrngReg)

-- What one point's body computes from its two blocks, in either control case: the sum of its 128 rows' losses.
variable (hPA : ∀ (c : Dev nD) (arg2 : Memref sig .tc .vmem S128x32000 .f32) (harg2 : arg2.IsWhole)
    (arg3 : Memref sig .tc .vmem S128x1 .i32) (harg3 : arg3.IsWhole)
    (x0 : Vec Ideal S128x32000 .f32) (x1 : Vec Ideal S128x1 .i32) (xr : Fin 128 → Fin 32000 → ℝ) (kr : Fin 128 → Fin 32000),
    (∀ p j, x0 (ix2 p j) = ((xr p j : ℝ) : EReal)) → (∀ p, x1 (ix2 p (0 : Fin 1)) = BitVec.ofNat 32 (kr p).val) →
    kernelRun0_A.sl.r_21 (F := Ideal) c arg2 harg2 arg3 harg3 x0 x1 = ((∑ p, rowLoss (xr p) (kr p) : ℝ) : EReal))
variable (hPB : ∀ (c : Dev nD) (arg2 : Memref sig .tc .vmem S128x32000 .f32) (harg2 : arg2.IsWhole)
    (arg3 : Memref sig .tc .vmem S128x1 .i32) (harg3 : arg3.IsWhole)
    (x0 : Vec Ideal S128x32000 .f32) (x1 : Vec Ideal S128x1 .i32) (xr : Fin 128 → Fin 32000 → ℝ) (kr : Fin 128 → Fin 32000),
    (∀ p j, x0 (ix2 p j) = ((xr p j : ℝ) : EReal)) → (∀ p, x1 (ix2 p (0 : Fin 1)) = BitVec.ofNat 32 (kr p).val) →
    kernelRun0_B.sl.r_21 (F := Ideal) c arg2 harg2 arg3 harg3 x0 x1 = ((∑ p, rowLoss (xr p) (kr p) : ℝ) : EReal))

include hPA hPB in
/-- The kernel's run on finite logits and in-range class indices: its result is the sum of the rows' losses, and its
    arguments end unchanged. -/
theorem value_run (xr : Dev nD → Fin 8192 → Fin 32000 → ℝ) (kr : Dev nD → Fin 8192 → Fin 32000)
    (hX : ∀ (c : Dev nD) (r : Fin 8192) (j : Fin 32000), m ((c.tc : Thread nD τ).loc main_arg0) (ix2 r j) = ((xr c r j : ℝ) : EReal))
    (hT : ∀ (c : Dev nD) (r : Fin 8192), m ((c.tc : Thread nD τ).loc main_arg1) (ix1 r) = BitVec.ofNat 32 (kr c r).val) :
    θ_run defs (onTc (τ := τ) (main (F := Ideal))) ⟨m, fun _ => 0, ρ⟩ fun r => ∀ c : Dev nD,
      r.2.mem ((c.tc : Thread nD τ).loc main_v2)
        = (fun _ => ((∑ r' : Fin 8192, rowLoss (xr c r') (kr c r') : ℝ) : EReal) : Buf (Elt Ideal) ((c.tc : Thread nD τ).loc main_v2))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have hN : cfg0.N = 64 := N_0
  have hA : ∀ (c : Dev nD) (t : Fin cfg0.N), kernelRun0_A.sl.r_21 (F := Ideal) c (ms0_0 t) (hs0_0 t) (ms0_1 t) (hs0_1 t) (iblk m c 0 t) (iblk m c 1 t)
      = ((pointSum (xr c) (kr c) t.val : ℝ) : EReal) := fun c t => by
    have ht : t.val < 64 := hN ▸ t.isLt
    rw [pointSum_eq _ _ _ ht]
    exact hPA c _ _ _ _ (xblk m c t) (tblk m c t) (fun p j => xr c ⟨128 * t.val + p.val, by have := p.isLt; omega⟩ j)
      (fun p => kr c ⟨128 * t.val + p.val, by have := p.isLt; omega⟩)
      (fun p j => (xblk_apply m c t p j (by have := p.isLt; omega)).trans (hX c _ j))
      (fun p => (tblk_apply m c t p (by have := p.isLt; omega)).trans (hT c _))
  have hB : ∀ (c : Dev nD) (t : Fin cfg0.N), kernelRun0_B.sl.r_21 (F := Ideal) c (ms0_0 t) (hs0_0 t) (ms0_1 t) (hs0_1 t) (iblk m c 0 t) (iblk m c 1 t)
      = ((pointSum (xr c) (kr c) t.val : ℝ) : EReal) := fun c t => by
    have ht : t.val < 64 := hN ▸ t.isLt
    rw [pointSum_eq _ _ _ ht]
    exact hPB c _ _ _ _ (xblk m c t) (tblk m c t) (fun p j => xr c ⟨128 * t.val + p.val, by have := p.isLt; omega⟩ j)
      (fun p => kr c ⟨128 * t.val + p.val, by have := p.isLt; omega⟩)
      (fun p j => (xblk_apply m c t p j (by have := p.isLt; omega)).trans (hX c _ j))
      (fun p => (tblk_apply m c t p (by have := p.isLt; omega)).trans (hT c _))
  refine (θ_run defs _ _).mono (fun r h c => ⟨?_, (h c).2⟩) (run m ρ (fun c t => pointSum (xr c) (kr c) t) hA hB)
  rw [(h c).1, total_eq]

end Value

end Cert.KernelIdeal.Acc

end
-- ==== Proof.RefValue.lean ====
/-
  What the reference program computes, as one real number.

  The reference takes the log-softmax of each row of the input `[8192, 32000]`: with `M` the row's greatest entry taken
  from −∞, `shifted j = x j − M`, `s = 0 + ∑ j, exp (shifted j)` and `lsm j = shifted j − log s`. It then takes, in each row,
  the entry at the row's class `k` (the class index is wrapped if negative, tested against `[0, 31999]`, and the entry
  is gathered at the index clamped into that range; out of range the result would be a junk value), and with `lp` that
  entry the row's loss is `(−(1 − exp lp) ^ 3) · lp`; the result is `0 +` the sum of the rows' losses.

  On an input of reals with every class in `[0, 31999]`:
  * the row maximum `M` is a real (a maximum from −∞ of a nonempty family of reals), and its value does not matter:
    `(x k − M) − log (∑ j, exp (x j − M)) = x k − log (∑ j, exp (x j))`, since the shifted sum is `exp (−M)` times the
    unshifted one, which is positive;
  * the class index is not negative, so the wrap leaves it; it is in range, so the mask is set (its and over a unit axis
    is set) and the clamp leaves it; the gather reads row `r` of the log-softmax at column `k r`;
  * `exp`, `log` of a positive real, the difference `1 − exp lp`, the power with the real exponent 3 (the real power at
    a natural exponent is the monomial) and the product stay in the reals.
  So the result is `∑ r, rowLoss (x r) (k r)` (Spec.lean).
-/
import proofs.«431238_j12627203851059_3_alg».proof.Proof.RefRead
import proofs.«431238_j12627203851059_3_alg».proof.Proof.Spec
import Idealize.ShloMosaic.Lib.ValueIdx
import Idealize.ShloMosaic.Lib.ValueIdxRank1
import Idealize.ShloMosaic.Lib.Pipeline.Value
import Idealize.ShloMosaic.PureOps.Ideal.Laws
import Idealize.ShloMosaic.Lib.IdealHost
import Mathlib.Analysis.SpecialFunctions.Pow.Real
import Mathlib.Analysis.SpecialFunctions.Log.Basic

noncomputable section

open scoped BigOperators

namespace Cert.Focal

open Cert.ReferenceIdeal Cert.ReferenceIdeal.Gen Cert.ReferenceIdeal.ReadP Idealize.ShloMosaic Idealize.ShloMosaic.ValueIdx

/-! ## Words -/

/-- The word `0xFF800000` is −∞. -/
theorem ofBits_neg_inf_f32 : Ideal.ofBits .f32 0xFF800000#32 = ⊥ := by
  simp [Ideal.ofBits, Ideal.ieee]

/-- The word `0x40400000` is the real 3. -/
theorem ofBits_three_f32 : Ideal.ofBits .f32 0x40400000#32 = ((3 : ℝ) : EReal) := by
  simp [Ideal.ofBits, Ideal.ieee, -EReal.coe_mul]; norm_num

/-- A class index below 32000, as a 32-bit word, reads back signed as itself. -/
theorem toInt_ofNat_small (k : ℕ) (hk : k < 32000) : (BitVec.ofNat 32 k).toInt = (k : ℤ) := by
  rw [BitVec.toInt_eq_toNat_cond, BitVec.toNat_ofNat, Nat.mod_eq_of_lt (by omega)]
  rw [if_pos (by omega)]

/-- Such a word is not negative … -/
theorem slt_zero (k : ℕ) (hk : k < 32000) : IntOp.cmpi .slt (BitVec.ofNat 32 k) 0#32 = 0#1 := by
  have h := toInt_ofNat_small k hk
  have h0 : (0#32 : BitVec 32).toInt = 0 := by decide
  show BitVec.ofBool ((BitVec.ofNat 32 k).slt 0#32) = 0#1
  rw [BitVec.slt, h, h0, decide_eq_false (by omega)]; rfl

/-- … it is at least zero … -/
theorem sge_zero (k : ℕ) (hk : k < 32000) : IntOp.cmpi .sge (BitVec.ofNat 32 k) 0#32 = 1#1 := by
  have h := toInt_ofNat_small k hk
  have h0 : (0#32 : BitVec 32).toInt = 0 := by decide
  show BitVec.ofBool ((0#32 : BitVec 32).sle (BitVec.ofNat 32 k)) = 1#1
  rw [BitVec.sle, h, h0, decide_eq_true (by omega)]; rfl

/-- … and at most 31999 … -/
theorem sle_max (k : ℕ) (hk : k < 32000) : IntOp.cmpi .sle (BitVec.ofNat 32 k) 31999#32 = 1#1 := by
  have h := toInt_ofNat_small k hk
  have h2 : (31999#32 : BitVec 32).toInt = 31999 := by decide
  show BitVec.ofBool ((BitVec.ofNat 32 k).sle 31999#32) = 1#1
  rw [BitVec.sle, h, h2, decide_eq_true (by omega)]; rfl

/-- … so the clamp into `[0, 31999]` of its signed reading leaves it. -/
theorem toNat_toInt_small (k : ℕ) (hk : k < 32000) : min (BitVec.ofNat 32 k).toInt.toNat 31999 = k := by
  rw [toInt_ofNat_small k hk, Int.toNat_natCast]; omega

instance : Std.Commutative (IntOp.andi (w := 1)) := ⟨fun a b => BitVec.and_comm a b⟩
instance : Std.Associative (IntOp.andi (w := 1)) := ⟨fun a b c => BitVec.and_assoc a b c⟩

/-! ## Sums and maxima of reals inside the extended reals -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of two coerced reals is the coerced maximum. -/
theorem coe_max' (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The maximum from −∞ of a nonempty finite family of reals is a real. -/
theorem fold_max_coe {ι : Type*} [DecidableEq ι] (s : Finset ι) (f : ι → ℝ) (hs : s.Nonempty) :
    ∃ M : ℝ, s.fold max (⊥ : EReal) (fun i => (f i : EReal)) = (M : EReal) := by
  induction s using Finset.induction_on with
  | empty => exact absurd hs (by simp)
  | insert a s ha ih =>
    rw [Finset.fold_insert ha]
    rcases s.eq_empty_or_nonempty with rfl | hne
    · exact ⟨f a, by simp⟩
    · obtain ⟨M, hM⟩ := ih hne
      exact ⟨max (f a) M, by rw [hM, coe_max']⟩

/-! ## The log-softmax of a row does not depend on the shift -/

theorem sum_exp_pos (x : Fin 32000 → ℝ) (M : ℝ) : 0 < ∑ j, Real.exp (x j - M) :=
  Finset.sum_pos (fun i _ => Real.exp_pos _) Finset.univ_nonempty

/-- `(x k − M) − log (∑ j, exp (x j − M)) = x k − log (∑ j, exp (x j))`: the sum of the shifted exponentials is
    `exp (−M)` times the sum of the exponentials, which is positive. -/
theorem logsumexp_shift (x : Fin 32000 → ℝ) (k : Fin 32000) (M : ℝ) :
    (x k - M) - Real.log (∑ j, Real.exp (x j - M)) = logProb x k := by
  unfold logProb
  have hS : 0 < ∑ j, Real.exp (x j) := Finset.sum_pos (fun i _ => Real.exp_pos _) Finset.univ_nonempty
  have h1 : ∑ j, Real.exp (x j - M) = Real.exp (-M) * ∑ j, Real.exp (x j) := by
    rw [Finset.mul_sum]
    refine Finset.sum_congr rfl fun j _ => ?_
    rw [← Real.exp_add]; congr 1; ring
  rw [h1, Real.log_mul (Real.exp_pos _).ne' hS.ne', Real.log_exp]
  ring

/-! ## The three operations read by hand -/

/-- The gather of the reference, at row `r`: the operand's row `r` at the start index of that row, read signed and
    clamped into `[0, 31999]`. Axis 0 of the operand is the batching axis (it takes the result's row), axis 1 is the
    collapsed axis the start index names. -/
theorem gather_row {α : Type} (x : S8192x32000.Idx → α) (idx : IVec S8192x1x1 32) (r : Fin 8192) :
    Host.gather gather_S8192x32000_S8192x1x1_S8192x1_n_1_0_0_1_2_11 x idx (ix2 r (0 : Fin 1))
      = x (ix2 r (⟨min (idx (ix3 r (0 : Fin 1) (0 : Fin 1))).toInt.toNat 31999, by omega⟩ : Fin 32000)) := by
  unfold Host.gather
  congr 1
  funext a
  match a with
  | ⟨0, h0⟩ =>
    refine Fin.ext ?_
    have hm : (⟨0, h0⟩ : Fin S8192x32000.rank) ∈ gather_S8192x32000_S8192x1x1_S8192x1_n_1_0_0_1_2_11.operandBatchingDims :=
      List.mem_singleton.mpr rfl
    show gather_S8192x32000_S8192x1x1_S8192x1_n_1_0_0_1_2_11.start (ix2 r (0 : Fin 1)) idx ⟨0, h0⟩
      + gather_S8192x32000_S8192x1x1_S8192x1_n_1_0_0_1_2_11.batchCoord (ix2 r (0 : Fin 1)) ⟨0, h0⟩
      + gather_S8192x32000_S8192x1x1_S8192x1_n_1_0_0_1_2_11.offCoord (ix2 r (0 : Fin 1)) ⟨0, h0⟩ = r.val
    rw [GatherDims.start_batching _ _ _ _ hm,
      GatherDims.offCoord_eq_zero _ _ _ (fun h => ((GatherDims.mem_sKept _ _).mp h).2 hm)]
    simp only [Nat.zero_add, Nat.add_zero]
    unfold GatherDims.batchCoord
    rw [dif_pos hm]
    rfl
  | ⟨1, h1⟩ =>
    refine Fin.ext ?_
    have hm : (⟨1, h1⟩ : Fin S8192x32000.rank) ∈ gather_S8192x32000_S8192x1x1_S8192x1_n_1_0_0_1_2_11.startIndexMap :=
      List.mem_singleton.mpr rfl
    have hc : (⟨1, h1⟩ : Fin S8192x32000.rank) ∈ gather_S8192x32000_S8192x1x1_S8192x1_n_1_0_0_1_2_11.collapsedSliceDims :=
      List.mem_singleton.mpr rfl
    have hb : (⟨1, h1⟩ : Fin S8192x32000.rank) ∉ gather_S8192x32000_S8192x1x1_S8192x1_n_1_0_0_1_2_11.operandBatchingDims :=
      fun h => absurd (congrArg Fin.val (List.mem_singleton.mp h)) Nat.one_ne_zero
    show gather_S8192x32000_S8192x1x1_S8192x1_n_1_0_0_1_2_11.start (ix2 r (0 : Fin 1)) idx ⟨1, h1⟩
      + gather_S8192x32000_S8192x1x1_S8192x1_n_1_0_0_1_2_11.batchCoord (ix2 r (0 : Fin 1)) ⟨1, h1⟩
      + gather_S8192x32000_S8192x1x1_S8192x1_n_1_0_0_1_2_11.offCoord (ix2 r (0 : Fin 1)) ⟨1, h1⟩ = _
    rw [GatherDims.batchCoord_eq_zero _ _ _ hb,
      GatherDims.offCoord_eq_zero _ _ _ (fun h => ((GatherDims.mem_sKept _ _).mp h).1 hc)]
    simp only [Nat.add_zero]
    unfold GatherDims.start
    rw [dif_pos hm]
    have hsi : gather_S8192x32000_S8192x1x1_S8192x1_n_1_0_0_1_2_11.siIdx (ix2 r (0 : Fin 1))
        ⟨List.idxOf (⟨1, h1⟩ : Fin S8192x32000.rank) gather_S8192x32000_S8192x1x1_S8192x1_n_1_0_0_1_2_11.startIndexMap,
          List.idxOf_lt_length_iff.2 hm⟩ = ix3 r (0 : Fin 1) (0 : Fin 1) := by
      funext b; refine Fin.ext ?_
      match b with
      | ⟨0, _⟩ => rfl
      | ⟨1, _⟩ => rfl
      | ⟨2, _⟩ => rfl
    rw [hsi]
    rfl

/-- The greatest entry of a row of reals, taken from −∞, is a real. -/
theorem rowmax_real (X : (⟨S8192x32000, .f32⟩ : BufTy).Contents (Elt Ideal))
    (hX : ∀ j : S8192x32000.Idx, ∃ v : ℝ, X j = (v : EReal)) (i : S8192.Idx) :
    ∃ M : ℝ, val_main_call0_v0 (F := Ideal) X i = (M : EReal) := by
  choose v hv using hX
  have hR : S8192x32000.Reduces [1] S8192 := by decide
  have e := Host.reduce_eq_fold_single (FloatOps.maximumf (F := Ideal) (φ := .f32)) X (val_main_call0_cst (F := Ideal))
    reducesTo_S8192x32000_S8192_d1 hR h_S_ i
  have hc : val_main_call0_cst (F := Ideal) (Shape.Idx.first h_S_) = (⊥ : EReal) :=
    (val_main_call0_cst_apply _).trans ofBits_neg_inf_f32
  have hf : (X ∘ hR.lift i) = fun k => ((v (hR.lift i k) : ℝ) : EReal) := funext fun k => hv _
  rw [hc, hf] at e
  haveI : Nonempty (Fin (S8192x32000.size (1 : Fin 2))) := ⟨⟨0, by decide⟩⟩
  obtain ⟨M, hM⟩ := fold_max_coe Finset.univ (fun k => v (hR.lift i k)) Finset.univ_nonempty
  exact ⟨M, e.trans hM⟩

/-- The and over a unit axis of a mask that is set everywhere is set. -/
theorem and_unit_axis (T : (⟨S8192, .i32⟩ : BufTy).Contents (Elt Ideal))
    (h11 : ∀ j : S8192x1x1.Idx, val_main_call1_v11 (F := Ideal) T j = 1#1) (i : S8192x1.Idx) :
    val_main_call1_v12 (F := Ideal) T i = 1#1 := by
  have hR : S8192x1x1.Reduces [2] S8192x1 := by decide
  have e := Host.reduce_eq_fold_single (IntOp.andi (w := 1)) (val_main_call1_v11 (F := Ideal) T) (val_main_call1_c_3 (F := Ideal))
    reducesTo_S8192x1x1_S8192x1_d2 hR h_S_ i
  have hf : (val_main_call1_v11 (F := Ideal) T ∘ hR.lift i) = fun _ => 1#1 := funext fun k => h11 _
  have hc : val_main_call1_c_3 (F := Ideal) (Shape.Idx.first h_S_) = 1#1 := val_main_call1_c_3_apply _
  rw [hf, hc] at e
  refine e.trans ?_
  show Finset.fold IntOp.andi 1#1 (fun _ => 1#1) (Finset.univ : Finset (Fin 1)) = 1#1
  rw [Finset.univ_unique, Finset.fold_singleton]
  rfl

/-! ## The reference, row by row -/

section Rows
variable (X : (⟨S8192x32000, .f32⟩ : BufTy).Contents (Elt Ideal)) (T : (⟨S8192, .i32⟩ : BufTy).Contents (Elt Ideal))
  (xr : Fin 8192 → Fin 32000 → ℝ) (kr : Fin 8192 → Fin 32000)
  (hX : ∀ r j, X (ix2 r j) = ((xr r j : ℝ) : EReal)) (hT : ∀ r, T (ix1 r) = BitVec.ofNat 32 (kr r).val)

include hX in
/-- Every entry of the input is a real. -/
theorem input_real (j : S8192x32000.Idx) : ∃ v : ℝ, X j = (v : EReal) :=
  ⟨xr (j 0) (j 1), (congrArg X (eq_ix2 j)).trans (hX (j 0) (j 1))⟩

include hT in
/-- The class index of row `r` after the wrap of negative indices is the class itself: it is not negative. -/
theorem idx_row (r : Fin 8192) (a b : Fin 1) :
    val_main_call1_v5 (F := Ideal) T (ix3 r a b) = BitVec.ofNat 32 (kr r).val := by
  have h5 : idx_main_call1_v5 (ix3 r a b) = ix2 r (0 : Fin 1) := by
    funext c
    match c with
    | ⟨0, _⟩ =>
      refine Fin.ext ?_
      show ((r.val * 1 + a.val) * 1 + b.val) / 1 = r.val
      have := a.isLt; have := b.isLt; omega
    | ⟨1, _⟩ => rfl
  have h1 : idx_main_v1 (ix2 r (0 : Fin 1)) = ix1 r := by
    funext c; match c with | ⟨0, _⟩ => rfl
  rw [val_main_call1_v5_apply, h5, val_main_call1_v4_apply, val_main_call1_v1_apply, val_main_v1_apply, h1, hT,
    val_main_call1_v0_apply, val_main_call1_c_apply, slt_zero _ (kr r).isLt, select_zero]

include hT in
/-- The in-range mask is set at every row: the class is in `[0, 31999]`. -/
theorem mask_row (j : S8192x1x1.Idx) : val_main_call1_v11 (F := Ideal) T j = 1#1 := by
  obtain ⟨r, a, b, rfl⟩ : ∃ (r : Fin 8192) (a b : Fin 1), j = ix3 r a b := ⟨j 0, j 1, j 2, eq_ix3 j⟩
  rw [val_main_call1_v11_apply, val_main_call1_v7_apply, val_main_call1_v10_apply, idx_row T kr hT r a b,
    val_main_call1_v6_apply, val_main_call1_c_2_apply, val_main_call1_v9_apply, val_main_call1_v8_apply,
    val_main_call1_c_1_apply, sge_zero _ (kr r).isLt, sle_max _ (kr r).isLt]
  rfl

include hX in
/-- The log-softmax of row `r` at column `j`. -/
theorem lsm_entry (r : Fin 8192) (j : Fin 32000) :
    val_main_v0 (F := Ideal) X (ix2 r j) = ((logProb (xr r) j : ℝ) : EReal) := by
  obtain ⟨M, hM⟩ := rowmax_real X (input_real X xr hX) (ix1 r)
  have h4 : ∀ j' : Fin 32000, val_main_call0_v4 (F := Ideal) X (ix2 r j') = (M : EReal) := by
    intro j'
    have hi : idx_main_call0_v3 (idx_main_call0_v4 (ix2 r j')) = ix1 r := by
      funext a; match a with | ⟨0, _⟩ => rfl
    rw [val_main_call0_v4_apply, val_main_call0_v3_apply, hi, val_main_call0_v2_apply, val_main_call0_v1_apply,
      val_main_call0_cst_0_apply, hM, Ideal.ofBits_def, ofBits_neg_inf_f32, Ideal.maximumf_def]
    exact max_eq_right bot_le
  have h5 : ∀ j' : Fin 32000, val_main_call0_v5 (F := Ideal) X (ix2 r j') = ((xr r j' - M : ℝ) : EReal) := by
    intro j'
    rw [val_main_call0_v5_apply, h4, hX, Ideal.subf_def, ← EReal.coe_sub]
  have h7 : val_main_call0_v7 (F := Ideal) X (ix1 r) = ((∑ k, Real.exp (xr r k - M) : ℝ) : EReal) := by
    rw [val_main_call0_v7_apply, val_main_call0_cst_1_apply, Ideal.ofBits_def, Ideal.ofBits_zero_f32, zero_add,
      coe_finset_sum]
    refine Finset.sum_congr rfl fun k _ => ?_
    have hi : idx_main_call0_v7 (ix1 r) k = ix2 r k := by
      funext a; match a with | ⟨0, _⟩ => rfl | ⟨1, _⟩ => rfl
    rw [hi, val_main_call0_v6_apply, h5, Ideal.hostUnary_exp_def, Ideal.exp_coe]
  have hi : idx_main_call0_v8 (idx_main_call0_v10 (ix2 r j)) = ix1 r := by
    funext a; match a with | ⟨0, _⟩ => rfl
  rw [val_main_v0_apply, val_main_call0_v10_apply, val_main_call0_v9_apply, val_main_call0_v8_apply, hi, h5, h7,
    Ideal.hostUnary_log_def, Ideal.log_coe, if_neg (not_le.2 (sum_exp_pos (xr r) M)), Ideal.subf_def, ← EReal.coe_sub,
    logsumexp_shift]

include hX hT in
/-- The entry the reference takes from row `r` of the log-softmax is the one at the row's class. -/
theorem take_row (r : Fin 8192) :
    val_main_v3 (F := Ideal) X T (ix1 r) = ((logProb (xr r) (kr r) : ℝ) : EReal) := by
  have hi : idx_main_v3 (ix1 r) = ix2 r (0 : Fin 1) := by
    funext a
    match a with
    | ⟨0, _⟩ => exact Fin.ext (Nat.div_one _)
    | ⟨1, _⟩ => rfl
  rw [val_main_v3_apply, hi, val_main_v2_apply, and_unit_axis T (mask_row T kr hT), select_one]
  unfold val_main_call1_v13
  rw [gather_row, ← lsm_entry X xr hX r (kr r)]
  refine congrArg (fun c => val_main_v0 (F := Ideal) X (ix2 r c)) (Fin.ext ?_)
  show min (val_main_call1_v5 (F := Ideal) T (ix3 r (0 : Fin 1) (0 : Fin 1))).toInt.toNat 31999 = (kr r).val
  rw [idx_row T kr hT r 0 0]
  exact toNat_toInt_small _ (kr r).isLt

include hX hT in
/-- The loss of row `r`: `−(1 − exp lp)³ · lp` at the row's log-probability `lp`. -/
theorem loss_row (r : Fin 8192) :
    val_main_v10 (F := Ideal) X T (ix1 r) = ((rowLoss (xr r) (kr r) : ℝ) : EReal) := by
  have h3 := take_row X T xr kr hX hT r
  have hp : ∀ a : ℝ, Real.rpow a 3 = a ^ 3 := by
    intro a
    have h := Real.rpow_natCast a 3
    rw [← h]
    show a ^ (3 : ℝ) = a ^ ((3 : ℕ) : ℝ)
    norm_num
  rw [val_main_v10_apply, val_main_v9_apply, val_main_v8_apply, val_main_v6_apply, val_main_v5_apply, val_main_cst_apply,
    val_main_v4_apply, val_main_v7_apply, val_main_cst_0_apply, h3]
  simp only [Ideal.ofBits_def, Ideal.ofBits_one_f32, ofBits_three_f32, Ideal.hostUnary_exp_def, Ideal.exp_coe,
    Ideal.subf_def, Ideal.hostPowf_def, Ideal.hostNegf_def, Ideal.negf_def, Ideal.mulf_def]
  rw [← EReal.coe_one, ← EReal.coe_sub, Ideal.pow_coe_coe, ← EReal.coe_neg, ← EReal.coe_mul, hp]
  rfl

end Rows

/-- WHAT THE REFERENCE COMPUTES: the sum over the rows of the focal loss with exponent 3 of each row at its class. -/
theorem ref_value (X : (⟨S8192x32000, .f32⟩ : BufTy).Contents (Elt Ideal)) (T : (⟨S8192, .i32⟩ : BufTy).Contents (Elt Ideal))
    (xr : Fin 8192 → Fin 32000 → ℝ) (kr : Fin 8192 → Fin 32000)
    (hX : ∀ r j, X (ix2 r j) = ((xr r j : ℝ) : EReal)) (hT : ∀ r, T (ix1 r) = BitVec.ofNat 32 (kr r).val) (i : S_.Idx) :
    val_main_v11 (F := Ideal) X T i = ((∑ r, rowLoss (xr r) (kr r) : ℝ) : EReal) := by
  rw [val_main_v11_apply, val_main_cst_1_apply, Ideal.ofBits_def, Ideal.ofBits_zero_f32, zero_add, coe_finset_sum,
    ← Equiv.sum_comp (idxEquiv1 (n := 8192)).symm]
  exact Finset.sum_congr rfl fun r _ => loss_row X T xr kr hX hT r

end Cert.Focal

end
-- ==== Proof.lean ====
/-
  The certificate's claims, assembled.

  The kernel computes, for logits `x : f32[8192, 32000]` and class indices `t : i32[8192]`, the focal loss with exponent 3
  summed over the rows: with `lp r = x r (t r) − log (∑ j, exp (x r j))`, the result is `∑ r, −(1 − exp (lp r))³ · lp r`.
  It walks each row's columns once, in ten chunks, keeping a running maximum, a rescaled running sum of exponentials
  and a masked running sum that picks out the class column; 64 grid points of 128 rows each add their rows' losses into
  one accumulator per core, and the host adds the two cores' numbers. The reference takes log-softmax of every row, reads
  it at the class index, and sums `−(1 − exp lp) ^ 3 · lp`.

  Over the extended reals, under the precondition (every logit finite, every class index in `[0, 32000)`), both are the
  same real number: the running maximum's value never matters, because `log (∑ j, exp (x j − M)) + M = log (∑ j, exp (x j))`
  for every finite `M`; a power with exponent 3 is the cube; and a sum of real numbers does not depend on its grouping.
  The class index has to be in range for the two to agree: outside `[0, 32000)` the reference wraps a negative index or
  returns its fill value, while the kernel's masked sum finds no column.
-/
import proofs.«431238_j12627203851059_3_alg».proof.Defs
import proofs.«431238_j12627203851059_3_alg».proof.Proof.Gen.Kernel
import proofs.«431238_j12627203851059_3_alg».proof.Proof.Gen.Kernel.Skeleton
import proofs.«431238_j12627203851059_3_alg».proof.Proof.Gen.Kernel.Launch
import proofs.«431238_j12627203851059_3_alg».proof.Proof.Gen.Kernel.Points
import proofs.«431238_j12627203851059_3_alg».proof.Proof.Gen.Kernel.Frame
import proofs.«431238_j12627203851059_3_alg».proof.Proof.Gen.KernelIdeal
import proofs.«431238_j12627203851059_3_alg».proof.Proof.Gen.KernelIdeal.Skeleton
import proofs.«431238_j12627203851059_3_alg».proof.Proof.Gen.KernelIdeal.Launch
import proofs.«431238_j12627203851059_3_alg».proof.Proof.Gen.KernelIdeal.Points
import proofs.«431238_j12627203851059_3_alg».proof.Proof.Gen.KernelIdeal.Frame
import proofs.«431238_j12627203851059_3_alg».proof.Proof.Gen.ReferenceIdeal
import proofs.«431238_j12627203851059_3_alg».proof.Proof.Gen.Pre_finite_inputs
import proofs.«431238_j12627203851059_3_alg».proof.Proof.RefRun
import proofs.«431238_j12627203851059_3_alg».proof.Proof.RefRead
import proofs.«431238_j12627203851059_3_alg».proof.Proof.PreDecode
import proofs.«431238_j12627203851059_3_alg».proof.Proof.KerRow
import proofs.«431238_j12627203851059_3_alg».proof.Proof.KerValue
import proofs.«431238_j12627203851059_3_alg».proof.Proof.RefValue
import Idealize.ShloMosaic.Adequacy
import Idealize.ShloMosaic.Init

noncomputable section

namespace Cert.Proof

open Idealize.ShloMosaic Idealize.SL.Sem Cert.Focal

/-- The kernel as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the arguments, finite logits and class indices in range, both programs end with the sum
    of the rows' losses. -/
theorem algebraic : Cert.algebraic_KernelIdeal_ReferenceIdeal := by
  intro m ρ m' ρ' hpre hagree
  choose xr kr hX hT using fun c => reals_of_pre _ _ (hpre c)
  refine ⟨fun c => (fun _ => ((∑ r, rowLoss (xr c r) (kr c r) : ℝ) : EReal)), ?_, ?_⟩
  · exact Cert.KernelIdeal.Acc.value_run m ρ partialA partialB xr kr hX hT
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v11_eq, (hagree c).1, (hagree c).2]
    funext i
    exact ref_value _ _ (xr c) (kr c) (hX c) (hT c) i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
